-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x7 : Shape := ⟨2, ![16, 7]⟩
abbrev S7 : Shape := ⟨1, ![7]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x7 : S_.BroadcastsInDim S16x7 (![] : Fin 0 → Fin S16x7.rank)
  reducesTo_S16x7_S_d0_1 : S16x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg5 : FVec F S7 .f32) (main_v13 : IVec S_ 1) (main_v16 : IVec S16x7 1) : IVec S_ 1 :=
  let main_c_5 : IVec S_ 1 := constantI S_ 1 1#1
  let main_v17 : IVec S_ 1 := (fun x v => Host.reduce IntOp.andi x v reducesTo_S16x7_S_d0_1 h_S_) main_v16 main_c_5
  let main_v18 : IVec S_ 1 := andi main_v13 main_v17
  let main_v19 : FVec F S7 .f32 := Host.absf main_arg5
  let main_cst_6 : FVec F S_ .f32 := constant S_ .f32 0x7F800000#32
  let main_v20 : FVec F S7 .f32 := broadcastInDim S7 ![] bcast_S_S7 main_cst_6
  let main_v21 : IVec S7 1 := cmpf .olt main_v19 main_v20
  let main_c_7 : IVec S_ 1 := constantI S_ 1 1#1
  let main_v22 : IVec S_ 1 := (fun x v => Host.reduce IntOp.andi x v reducesTo_S7_S_d0 h_S_) main_v21 main_c_7
  let main_v23 : IVec S_ 1 := andi main_v18 main_v22
  main_v23

def fn {F : FTy → Type} [FloatOps F] (main_arg0 : FVec F S100000x128 .f32) (main_arg1 : IVec S2x3200000 32) (main_arg2 : FVec F S128x16 .f32) (main_arg3 : FVec F S16 .f32) (main_arg4 : FVec F S16x7 .f32) (main_arg5 : FVec F S7 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x16 .f32 := Host.absf main_arg2
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x7 .f32 := Host.absf main_arg4
  let main_cst_4 : FVec F S_ .f32 := constant S_ .f32 0x7F800000#32
  let main_v15 : FVec F S16x7 .f32 := broadcastInDim S16x7 ![] bcast_S_S16x7 main_cst_4
  let main_v16 : IVec S16x7 1 := cmpf .olt main_v14 main_v15
  fn_part1 (F := F) main_arg5 main_v13 main_v16
-- ==== Kernel.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x7 : Shape := ⟨2, ![16, 7]⟩
abbrev S7 : Shape := ⟨1, ![7]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S5000x128 : Shape := ⟨2, ![5000, 128]⟩
abbrev S5000x16 : Shape := ⟨2, ![5000, 16]⟩
abbrev S3300000x16 : Shape := ⟨2, ![3300000, 16]⟩
abbrev S6600x16 : Shape := ⟨2, ![6600, 16]⟩
abbrev S6600x1 : Shape := ⟨2, ![6600, 1]⟩
abbrev S1x16 : Shape := ⟨2, ![1, 16]⟩
abbrev S100000x7 : Shape := ⟨2, ![100000, 7]⟩
abbrev S5000x7 : Shape := ⟨2, ![5000, 7]⟩
abbrev S3300000x7 : Shape := ⟨2, ![3300000, 7]⟩
abbrev S6600x7 : Shape := ⟨2, ![6600, 7]⟩
abbrev S1x7 : Shape := ⟨2, ![1, 7]⟩

abbrev nBuf : Space → Nat
  | .hbm => 102
  | .vmem => 32
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x16, .f32⟩
  | .hbm, ⟨3, _⟩ => ⟨S16, .f32⟩
  | .hbm, ⟨4, _⟩ => ⟨S16x7, .f32⟩
  | .hbm, ⟨5, _⟩ => ⟨S7, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S100000, .f32⟩
  | .hbm, ⟨15, _⟩ => ⟨S_, .i32⟩
  | .hbm, ⟨16, _⟩ => ⟨S3300000, .i32⟩
  | .hbm, ⟨17, _⟩ => ⟨S3300000, .i1⟩
  | .hbm, ⟨18, _⟩ => ⟨S_, .i32⟩
  | .hbm, ⟨19, _⟩ => ⟨S3300000, .i32⟩
  | .hbm, ⟨20, _⟩ => ⟨S3300000, .i32⟩
  | .hbm, ⟨21, _⟩ => ⟨S3300000, .i32⟩
  | .hbm, ⟨22, _⟩ => ⟨S3300000x1, .i32⟩
  | .hbm, ⟨23, _⟩ => ⟨S_, .f32⟩
  | .hbm, ⟨24, _⟩ => ⟨S3300000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .i1⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S3300000, .i32⟩
  | .hbm, ⟨36, _⟩ => ⟨S3300000, .i1⟩
  | .hbm, ⟨37, _⟩ => ⟨S_, .i32⟩
  | .hbm, ⟨38, _⟩ => ⟨S3300000, .i32⟩
  | .hbm, ⟨39, _⟩ => ⟨S3300000, .i32⟩
  | .hbm, ⟨40, _⟩ => ⟨S3300000, .i32⟩
  | .hbm, ⟨41, _⟩ => ⟨S3300000x1, .i32⟩
  | .hbm, ⟨42, _⟩ => ⟨S3300000, .f32⟩
  | .hbm, ⟨43, _⟩ => ⟨S_, .i32⟩
  | .hbm, ⟨44, _⟩ => ⟨S3300000, .i32⟩
  | .hbm, ⟨45, _⟩ => ⟨S3300000, .i1⟩
  | .hbm, ⟨46, _⟩ => ⟨S_, .i32⟩
  | .hbm, ⟨47, _⟩ => ⟨S3300000, .i32⟩
  | .hbm, ⟨48, _⟩ => ⟨S3300000, .i32⟩
  | .hbm, ⟨49, _⟩ => ⟨S3300000, .i32⟩
  | .hbm, ⟨50, _⟩ => ⟨S3300000x1, .i32⟩
  | .hbm, ⟨51, _⟩ => ⟨S3300000, .f32⟩
  | .hbm, ⟨52, _⟩ => ⟨S3300000, .f32⟩
  | .hbm, ⟨53, _⟩ => ⟨S3300000x1, .f32⟩
  | .hbm, ⟨54, _⟩ => ⟨S100000x16, .f32⟩
  | .hbm, ⟨55, _⟩ => ⟨S_, .i32⟩
  | .hbm, ⟨56, _⟩ => ⟨S3300000, .i32⟩
  | .hbm, ⟨57, _⟩ => ⟨S3300000, .i1⟩
  | .hbm, ⟨58, _⟩ => ⟨S_, .i32⟩
  | .hbm, ⟨59, _⟩ => ⟨S3300000, .i32⟩
  | .hbm, ⟨60, _⟩ => ⟨S3300000, .i32⟩
  | .hbm, ⟨61, _⟩ => ⟨S3300000, .i32⟩
  | .hbm, ⟨62, _⟩ => ⟨S3300000x1, .i32⟩
  | .hbm, ⟨63, _⟩ => ⟨S3300000x16, .f32⟩
  | .hbm, ⟨64, _⟩ => ⟨S3300000x16, .f32⟩
  | .hbm, ⟨65, _⟩ => ⟨S_, .f32⟩
  | .hbm, ⟨66, _⟩ => ⟨S100000x16, .f32⟩
  | .hbm, ⟨67, _⟩ => ⟨S_, .i32⟩
  | .hbm, ⟨68, _⟩ => ⟨S3300000, .i32⟩
  | .hbm, ⟨69, _⟩ => ⟨S3300000, .i1⟩
  | .hbm, ⟨70, _⟩ => ⟨S_, .i32⟩
  | .hbm, ⟨71, _⟩ => ⟨S3300000, .i32⟩
  | .hbm, ⟨72, _⟩ => ⟨S3300000, .i32⟩
  | .hbm, ⟨73, _⟩ => ⟨S3300000, .i32⟩
  | .hbm, ⟨74, _⟩ => ⟨S3300000x1, .i32⟩
  | .hbm, ⟨75, _⟩ => ⟨S100000x16, .f32⟩
  | .hbm, ⟨76, _⟩ => ⟨S1x16, .f32⟩
  | .hbm, ⟨77, _⟩ => ⟨S100000x16, .f32⟩
  | .hbm, ⟨78, _⟩ => ⟨S100000x7, .f32⟩
  | .hbm, ⟨79, _⟩ => ⟨S_, .i32⟩
  | .hbm, ⟨80, _⟩ => ⟨S3300000, .i32⟩
  | .hbm, ⟨81, _⟩ => ⟨S3300000, .i1⟩
  | .hbm, ⟨82, _⟩ => ⟨S_, .i32⟩
  | .hbm, ⟨83, _⟩ => ⟨S3300000, .i32⟩
  | .hbm, ⟨84, _⟩ => ⟨S3300000, .i32⟩
  | .hbm, ⟨85, _⟩ => ⟨S3300000, .i32⟩
  | .hbm, ⟨86, _⟩ => ⟨S3300000x1, .i32⟩
  | .hbm, ⟨87, _⟩ => ⟨S3300000x7, .f32⟩
  | .hbm, ⟨88, _⟩ => ⟨S3300000x7, .f32⟩
  | .hbm, ⟨89, _⟩ => ⟨S_, .f32⟩
  | .hbm, ⟨90, _⟩ => ⟨S100000x7, .f32⟩
  | .hbm, ⟨91, _⟩ => ⟨S_, .i32⟩
  | .hbm, ⟨92, _⟩ => ⟨S3300000, .i32⟩
  | .hbm, ⟨93, _⟩ => ⟨S3300000, .i1⟩
  | .hbm, ⟨94, _⟩ => ⟨S_, .i32⟩
  | .hbm, ⟨95, _⟩ => ⟨S3300000, .i32⟩
  | .hbm, ⟨96, _⟩ => ⟨S3300000, .i32⟩
  | .hbm, ⟨97, _⟩ => ⟨S3300000, .i32⟩
  | .hbm, ⟨98, _⟩ => ⟨S3300000x1, .i32⟩
  | .hbm, ⟨99, _⟩ => ⟨S100000x7, .f32⟩
  | .hbm, ⟨100, _⟩ => ⟨S1x7, .f32⟩
  | .hbm, ⟨101, _⟩ => ⟨S100000x7, .f32⟩
  | .local _ .vmem, ⟨0, _⟩ => ⟨S5000x128, .f32⟩
  | .local _ .vmem, ⟨1, _⟩ => ⟨S5000x128, .f32⟩
  | .local _ .vmem, ⟨2, _⟩ => ⟨S128x16, .f32⟩
  | .local _ .vmem, ⟨3, _⟩ => ⟨S5000x16, .f32⟩
  | .local _ .vmem, ⟨4, _⟩ => ⟨S5000x16, .f32⟩
  | .local _ .vmem, ⟨5, _⟩ => ⟨S6600x16, .f32⟩
  | .local _ .vmem, ⟨6, _⟩ => ⟨S6600x16, .f32⟩
  | .local _ .vmem, ⟨7, _⟩ => ⟨S6600x1, .f32⟩
  | .local _ .vmem, ⟨8, _⟩ => ⟨S6600x1, .f32⟩
  | .local _ .vmem, ⟨9, _⟩ => ⟨S6600x16, .f32⟩
  | .local _ .vmem, ⟨10, _⟩ => ⟨S6600x16, .f32⟩
  | .local _ .vmem, ⟨11, _⟩ => ⟨S5000x16, .f32⟩
  | .local _ .vmem, ⟨12, _⟩ => ⟨S5000x16, .f32⟩
  | .local _ .vmem, ⟨13, _⟩ => ⟨S1x16, .f32⟩
  | .local _ .vmem, ⟨14, _⟩ => ⟨S5000x16, .f32⟩
  | .local _ .vmem, ⟨15, _⟩ => ⟨S5000x16, .f32⟩
  | .local _ .vmem, ⟨16, _⟩ => ⟨S5000x16, .f32⟩
  | .local _ .vmem, ⟨17, _⟩ => ⟨S5000x16, .f32⟩
  | .local _ .vmem, ⟨18, _⟩ => ⟨S16x7, .f32⟩
  | .local _ .vmem, ⟨19, _⟩ => ⟨S5000x7, .f32⟩
  | .local _ .vmem, ⟨20, _⟩ => ⟨S5000x7, .f32⟩
  | .local _ .vmem, ⟨21, _⟩ => ⟨S6600x7, .f32⟩
  | .local _ .vmem, ⟨22, _⟩ => ⟨S6600x7, .f32⟩
  | .local _ .vmem, ⟨23, _⟩ => ⟨S6600x1, .f32⟩
  | .local _ .vmem, ⟨24, _⟩ => ⟨S6600x1, .f32⟩
  | .local _ .vmem, ⟨25, _⟩ => ⟨S6600x7, .f32⟩
  | .local _ .vmem, ⟨26, _⟩ => ⟨S6600x7, .f32⟩
  | .local _ .vmem, ⟨27, _⟩ => ⟨S5000x7, .f32⟩
  | .local _ .vmem, ⟨28, _⟩ => ⟨S5000x7, .f32⟩
  | .local _ .vmem, ⟨29, _⟩ => ⟨S1x7, .f32⟩
  | .local _ .vmem, ⟨30, _⟩ => ⟨S5000x7, .f32⟩
  | .local _ .vmem, ⟨31, _⟩ => ⟨S5000x7, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_c_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_8 : Ref sig .tc := ⟨.hbm, 55, rfl⟩
abbrev main_v37 : Ref sig .tc := ⟨.hbm, 56, rfl⟩
abbrev main_v38 : Ref sig .tc := ⟨.hbm, 57, rfl⟩
abbrev main_c_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_10 : Ref sig .tc := ⟨.hbm, 65, rfl⟩
abbrev main_v45 : Ref sig .tc := ⟨.hbm, 66, rfl⟩
abbrev main_c_11 : Ref sig .tc := ⟨.hbm, 67, rfl⟩
abbrev main_v46 : Ref sig .tc := ⟨.hbm, 68, rfl⟩
abbrev main_v47 : Ref sig .tc := ⟨.hbm, 69, rfl⟩
abbrev main_c_12 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_13 : Ref sig .tc := ⟨.hbm, 79, rfl⟩
abbrev main_v56 : Ref sig .tc := ⟨.hbm, 80, rfl⟩
abbrev main_v57 : Ref sig .tc := ⟨.hbm, 81, rfl⟩
abbrev main_c_14 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_15 : Ref sig .tc := ⟨.hbm, 89, rfl⟩
abbrev main_v64 : Ref sig .tc := ⟨.hbm, 90, rfl⟩
abbrev main_c_16 : Ref sig .tc := ⟨.hbm, 91, rfl⟩
abbrev main_v65 : Ref sig .tc := ⟨.hbm, 92, rfl⟩
abbrev main_v66 : Ref sig .tc := ⟨.hbm, 93, rfl⟩
abbrev main_c_17 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![500], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6600x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6600x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S6600x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S16x7 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x7 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![500], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S6600x7 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S6600x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S6600x7 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x7 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x7 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x7 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S_S3300000 : S_.BroadcastsInDim S3300000 (![] : Fin 0 → Fin S3300000.rank)
  bcast_S3300000_S3300000x1_0 : S3300000.BroadcastsInDim S3300000x1 (![0] : Fin 1 → Fin S3300000x1.rank)
  shapeCasts_S3300000_S3300000x1 : S3300000.ShapeCasts S3300000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S5000x16_S5000x16_0_0 : ∀ a, (![0, 0] : Fin 2 → Nat) a + S5000x16.size a ≤ S5000x16.size a
  h_S5000x16 : 0 < S5000x16.numel
  inb_S6600x16_S6600x16_0_0 : ∀ a, (![0, 0] : Fin 2 → Nat) a + S6600x16.size a ≤ S6600x16.size a
  h_S6600x16 : 0 < S6600x16.numel
  shapeCasts_S6600x16_S6600x16 : S6600x16.ShapeCasts S6600x16
  inb_S6600x1_S6600x1_0_0 : ∀ a, (![0, 0] : Fin 2 → Nat) a + S6600x1.size a ≤ S6600x1.size a
  h_S6600x1 : 0 < S6600x1.numel
  shapeCasts_S6600x1_S6600x1 : S6600x1.ShapeCasts S6600x1
  broadcasts_S6600x1_S6600x16 : S6600x1.Broadcasts S6600x16
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x7_S16x7_0_0 : ∀ a, (![0, 0] : Fin 2 → Nat) a + S16x7.size a ≤ S16x7.size a
  h_S16x7 : 0 < S16x7.numel
  inb_S5000x7_S5000x7_0_0 : ∀ a, (![0, 0] : Fin 2 → Nat) a + S5000x7.size a ≤ S5000x7.size a
  h_S5000x7 : 0 < S5000x7.numel
  inb_S6600x7_S6600x7_0_0 : ∀ a, (![0, 0] : Fin 2 → Nat) a + S6600x7.size a ≤ S6600x7.size a
  h_S6600x7 : 0 < S6600x7.numel
  shapeCasts_S6600x7_S6600x7 : S6600x7.ShapeCasts S6600x7
  broadcasts_S6600x1_S6600x7 : S6600x1.Broadcasts S6600x7
  bcast_S_S100000x7 : S_.BroadcastsInDim S100000x7 (![] : Fin 0 → Fin S100000x7.rank)
  shapeCasts_S7_S1x7 : S7.ShapeCasts S1x7
  shapeCasts_S5000x7_S5000x7 : S5000x7.ShapeCasts S5000x7
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S5000x7 : S1x7.Broadcasts S5000x7
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x128_S128x16_S5000x16_1_0_0_1_n_n_wf : DotDims.WF S5000x128 S128x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S5000x16_S16x7_S5000x7_1_0_0_1_n_n_wf : DotDims.WF S5000x16 S16x7 S5000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6600x16.size a ≤ S3300000x16.size a
  hwx1_0 : ∀ i : grid1.Coords, EltTy.bits .f32 = 32 ∨ (Rect.block (s := S3300000x16) S6600x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6600x1.size a ≤ S3300000x1.size a
  hwx1_1 : ∀ i : grid1.Coords, EltTy.bits .f32 = 32 ∨ (Rect.block (s := S3300000x1) S6600x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S6600x16.size a ≤ S3300000x16.size a
  hwx1_2 : ∀ i : grid1.Coords, EltTy.bits .f32 = 32 ∨ (Rect.block (s := S3300000x16) S6600x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S100000x16.size a
  hwx2_0 : ∀ i : grid2.Coords, EltTy.bits .f32 = 32 ∨ (Rect.block (s := S100000x16) S5000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x16.size a ≤ S1x16.size a
  hwx2_1 : ∀ i : grid2.Coords, EltTy.bits .f32 = 32 ∨ (Rect.block (s := S1x16) S1x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x16.size a ≤ S100000x16.size a
  hwx2_2 : ∀ i : grid2.Coords, EltTy.bits .f32 = 32 ∨ (Rect.block (s := S100000x16) S5000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x16.size a ≤ S100000x16.size a
  hwx3_0 : ∀ i : grid3.Coords, EltTy.bits .f32 = 32 ∨ (Rect.block (s := S100000x16) S5000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S16x7.size a ≤ S16x7.size a
  hwx3_1 : ∀ i : grid3.Coords, EltTy.bits .f32 = 32 ∨ (Rect.block (s := S16x7) S16x7.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x7.size a ≤ S100000x7.size a
  hwx3_2 : ∀ i : grid3.Coords, EltTy.bits .f32 = 32 ∨ (Rect.block (s := S100000x7) S5000x7.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S6600x7.size a ≤ S3300000x7.size a
  hwx4_0 : ∀ i : grid4.Coords, EltTy.bits .f32 = 32 ∨ (Rect.block (s := S3300000x7) S6600x7.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S6600x1.size a ≤ S3300000x1.size a
  hwx4_1 : ∀ i : grid4.Coords, EltTy.bits .f32 = 32 ∨ (Rect.block (s := S3300000x1) S6600x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S6600x7.size a ≤ S3300000x7.size a
  hwx4_2 : ∀ i : grid4.Coords, EltTy.bits .f32 = 32 ∨ (Rect.block (s := S3300000x7) S6600x7.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x7.size a ≤ S100000x7.size a
  hwx5_0 : ∀ i : grid5.Coords, EltTy.bits .f32 = 32 ∨ (Rect.block (s := S100000x7) S5000x7.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x7.size a ≤ S1x7.size a
  hwx5_1 : ∀ i : grid5.Coords, EltTy.bits .f32 = 32 ∨ (Rect.block (s := S1x7) S1x7.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x7.size a ≤ S100000x7.size a
  hwx5_2 : ∀ i : grid5.Coords, EltTy.bits .f32 = 32 ∨ (Rect.block (s := S100000x7) S5000x7.size (cc5_transform_2 i) (hinb5_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S5000x16_S16x7_S5000x7_1_0_0_1_n_n : DotDims S5000x16 S16x7 S5000x7 where
  lhsContracting := [1]
  rhsContracting := [0]
  lhsNonContracting := [0]
  rhsNonContracting := [1]
  lhsBatch := []
  rhsBatch := []
  wf := dot_S5000x16_S16x7_S5000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v36) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S6600x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S6600x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S6600x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v52) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S1x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v54) S5000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v54) S5000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S16x7.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v55) S5000x7.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v62) S6600x7.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v35) S6600x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v63) S6600x7.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v71) S5000x7.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v72) S1x7.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v73) S5000x7.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x7 : Shape := ⟨2, ![16, 7]⟩
abbrev S7 : Shape := ⟨1, ![7]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x7 : Shape := ⟨2, ![100000, 7]⟩
abbrev S3300000x7 : Shape := ⟨2, ![3300000, 7]⟩
abbrev S1x7 : Shape := ⟨2, ![1, 7]⟩

abbrev nBuf : Space → Nat
  | .hbm => 153
  | .vmem => 0
  | .smem => 0
  | _ => 0

abbrev hbmTy0_0 (i : Nat) : BufTy := match i % 128 with
  | 0 => ⟨S100000x128, .f32⟩
  | 1 => ⟨S2x3200000, .i32⟩
  | 2 => ⟨S128x16, .f32⟩
  | 3 => ⟨S16, .f32⟩
  | 4 => ⟨S16x7, .f32⟩
  | 5 => ⟨S7, .f32⟩
  | 6 => ⟨S100000, .i32⟩
  | 7 => ⟨S1x3200000, .i32⟩
  | 8 => ⟨S3200000, .i32⟩
  | 9 => ⟨S3300000, .i32⟩
  | 10 => ⟨S1x3200000, .i32⟩
  | 11 => ⟨S3200000, .i32⟩
  | 12 => ⟨S3300000, .i32⟩
  | 13 => ⟨S_, .f32⟩
  | 14 => ⟨S100000, .f32⟩
  | 15 => ⟨S_, .i32⟩
  | 16 => ⟨S3300000, .i32⟩
  | 17 => ⟨S3300000, .i1⟩
  | 18 => ⟨S_, .i32⟩
  | 19 => ⟨S3300000, .i32⟩
  | 20 => ⟨S3300000, .i32⟩
  | 21 => ⟨S3300000, .i32⟩
  | 22 => ⟨S3300000x1, .i32⟩
  | 23 => ⟨S_, .f32⟩
  | 24 => ⟨S3300000, .f32⟩
  | 25 => ⟨S100000, .f32⟩
  | 26 => ⟨S_, .f32⟩
  | 27 => ⟨S100000, .f32⟩
  | 28 => ⟨S100000, .i1⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S3300000, .i32⟩
  | 36 => ⟨S3300000, .i1⟩
  | 37 => ⟨S_, .i32⟩
  | 38 => ⟨S3300000, .i32⟩
  | 39 => ⟨S3300000, .i32⟩
  | 40 => ⟨S3300000, .i32⟩
  | 41 => ⟨S3300000x1, .i32⟩
  | 42 => ⟨S3300000, .f32⟩
  | 43 => ⟨S_, .i32⟩
  | 44 => ⟨S3300000, .i32⟩
  | 45 => ⟨S3300000, .i1⟩
  | 46 => ⟨S_, .i32⟩
  | 47 => ⟨S3300000, .i32⟩
  | 48 => ⟨S3300000, .i32⟩
  | 49 => ⟨S3300000, .i32⟩
  | 50 => ⟨S3300000x1, .i32⟩
  | 51 => ⟨S3300000, .f32⟩
  | 52 => ⟨S3300000, .f32⟩
  | 53 => ⟨S100000x16, .f32⟩
  | 54 => ⟨S_, .i32⟩
  | 55 => ⟨S3300000, .i32⟩
  | 56 => ⟨S3300000, .i1⟩
  | 57 => ⟨S_, .i32⟩
  | 58 => ⟨S3300000, .i32⟩
  | 59 => ⟨S3300000, .i32⟩
  | 60 => ⟨S3300000, .i32⟩
  | 61 => ⟨S3300000x1, .i32⟩
  | 62 => ⟨S3300000x16, .f32⟩
  | 63 => ⟨S3300000x1, .f32⟩
  | 64 => ⟨S3300000x16, .f32⟩
  | 65 => ⟨S3300000x16, .f32⟩
  | 66 => ⟨S_, .f32⟩
  | 67 => ⟨S100000x16, .f32⟩
  | 68 => ⟨S_, .i32⟩
  | 69 => ⟨S3300000, .i32⟩
  | 70 => ⟨S3300000, .i1⟩
  | 71 => ⟨S_, .i32⟩
  | 72 => ⟨S3300000, .i32⟩
  | 73 => ⟨S3300000, .i32⟩
  | 74 => ⟨S3300000, .i32⟩
  | 75 => ⟨S3300000x1, .i32⟩
  | 76 => ⟨S100000x16, .f32⟩
  | 77 => ⟨S1x16, .f32⟩
  | 78 => ⟨S100000x16, .f32⟩
  | 79 => ⟨S100000x16, .f32⟩
  | 80 => ⟨S_, .f32⟩
  | 81 => ⟨S100000x16, .f32⟩
  | 82 => ⟨S100000x16, .f32⟩
  | 83 => ⟨S_, .f32⟩
  | 84 => ⟨S100000, .f32⟩
  | 85 => ⟨S_, .i32⟩
  | 86 => ⟨S3300000, .i32⟩
  | 87 => ⟨S3300000, .i1⟩
  | 88 => ⟨S_, .i32⟩
  | 89 => ⟨S3300000, .i32⟩
  | 90 => ⟨S3300000, .i32⟩
  | 91 => ⟨S3300000, .i32⟩
  | 92 => ⟨S3300000x1, .i32⟩
  | 93 => ⟨S_, .f32⟩
  | 94 => ⟨S3300000, .f32⟩
  | 95 => ⟨S100000, .f32⟩
  | 96 => ⟨S_, .f32⟩
  | 97 => ⟨S100000, .f32⟩
  | 98 => ⟨S100000, .i1⟩
  | 99 => ⟨S100000, .f32⟩
  | 100 => ⟨S_, .f32⟩
  | 101 => ⟨S_, .f32⟩
  | 102 => ⟨S100000, .f32⟩
  | 103 => ⟨S100000, .f32⟩
  | 104 => ⟨S_, .i32⟩
  | 105 => ⟨S3300000, .i32⟩
  | 106 => ⟨S3300000, .i1⟩
  | 107 => ⟨S_, .i32⟩
  | 108 => ⟨S3300000, .i32⟩
  | 109 => ⟨S3300000, .i32⟩
  | 110 => ⟨S3300000, .i32⟩
  | 111 => ⟨S3300000x1, .i32⟩
  | 112 => ⟨S3300000, .f32⟩
  | 113 => ⟨S_, .i32⟩
  | 114 => ⟨S3300000, .i32⟩
  | 115 => ⟨S3300000, .i1⟩
  | 116 => ⟨S_, .i32⟩
  | 117 => ⟨S3300000, .i32⟩
  | 118 => ⟨S3300000, .i32⟩
  | 119 => ⟨S3300000, .i32⟩
  | 120 => ⟨S3300000x1, .i32⟩
  | 121 => ⟨S3300000, .f32⟩
  | 122 => ⟨S3300000, .f32⟩
  | 123 => ⟨S100000x7, .f32⟩
  | 124 => ⟨S_, .i32⟩
  | 125 => ⟨S3300000, .i32⟩
  | 126 => ⟨S3300000, .i1⟩
  | 127 => ⟨S_, .i32⟩
  | _ => ⟨S100000x128, .f32⟩

abbrev hbmTy0_1 (i : Nat) : BufTy := match i % 128 with
  | 0 => ⟨S3300000, .i32⟩
  | 1 => ⟨S3300000, .i32⟩
  | 2 => ⟨S3300000, .i32⟩
  | 3 => ⟨S3300000x1, .i32⟩
  | 4 => ⟨S3300000x7, .f32⟩
  | 5 => ⟨S3300000x1, .f32⟩
  | 6 => ⟨S3300000x7, .f32⟩
  | 7 => ⟨S3300000x7, .f32⟩
  | 8 => ⟨S_, .f32⟩
  | 9 => ⟨S100000x7, .f32⟩
  | 10 => ⟨S_, .i32⟩
  | 11 => ⟨S3300000, .i32⟩
  | 12 => ⟨S3300000, .i1⟩
  | 13 => ⟨S_, .i32⟩
  | 14 => ⟨S3300000, .i32⟩
  | 15 => ⟨S3300000, .i32⟩
  | 16 => ⟨S3300000, .i32⟩
  | 17 => ⟨S3300000x1, .i32⟩
  | 18 => ⟨S100000x7, .f32⟩
  | 19 => ⟨S1x7, .f32⟩
  | 20 => ⟨S100000x7, .f32⟩
  | 21 => ⟨S100000x7, .f32⟩
  | 22 => ⟨S_, .f32⟩
  | 23 => ⟨S100000x7, .f32⟩
  | 24 => ⟨S100000x7, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_c_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_c_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_c_11 : Ref sig .tc := ⟨.hbm, 68, rfl⟩
abbrev main_v47 : Ref sig .tc := ⟨.hbm, 69, rfl⟩
abbrev main_v48 : Ref sig .tc := ⟨.hbm, 70, rfl⟩
abbrev main_c_12 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_call1_cst : Ref sig .tc := ⟨.hbm, 80, rfl⟩
abbrev main_call1_v0 : Ref sig .tc := ⟨.hbm, 81, rfl⟩
abbrev main_v57 : Ref sig .tc := ⟨.hbm, 82, rfl⟩
abbrev main_cst_13 : Ref sig .tc := ⟨.hbm, 83, rfl⟩
abbrev main_v58 : Ref sig .tc := ⟨.hbm, 84, rfl⟩
abbrev main_c_14 : Ref sig .tc := ⟨.hbm, 85, rfl⟩
abbrev main_v59 : Ref sig .tc := ⟨.hbm, 86, rfl⟩
abbrev main_v60 : Ref sig .tc := ⟨.hbm, 87, rfl⟩
abbrev main_c_15 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_16 : Ref sig .tc := ⟨.hbm, 93, rfl⟩
abbrev main_v65 : Ref sig .tc := ⟨.hbm, 94, rfl⟩
abbrev main_v66 : Ref sig .tc := ⟨.hbm, 95, rfl⟩
abbrev main_cst_17 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_18 : Ref sig .tc := ⟨.hbm, 100, rfl⟩
abbrev main_call2_v0 : Ref sig .tc := ⟨.hbm, 101, rfl⟩
abbrev main_call2_v1 : Ref sig .tc := ⟨.hbm, 102, rfl⟩
abbrev main_v70 : Ref sig .tc := ⟨.hbm, 103, rfl⟩
abbrev main_c_19 : Ref sig .tc := ⟨.hbm, 104, rfl⟩
abbrev main_v71 : Ref sig .tc := ⟨.hbm, 105, rfl⟩
abbrev main_v72 : Ref sig .tc := ⟨.hbm, 106, rfl⟩
abbrev main_c_20 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_c_21 : Ref sig .tc := ⟨.hbm, 113, rfl⟩
abbrev main_v78 : Ref sig .tc := ⟨.hbm, 114, rfl⟩
abbrev main_v79 : Ref sig .tc := ⟨.hbm, 115, rfl⟩
abbrev main_c_22 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_c_23 : Ref sig .tc := ⟨.hbm, 124, rfl⟩
abbrev main_v87 : Ref sig .tc := ⟨.hbm, 125, rfl⟩
abbrev main_v88 : Ref sig .tc := ⟨.hbm, 126, rfl⟩
abbrev main_c_24 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_cst_25 : Ref sig .tc := ⟨.hbm, 136, rfl⟩
abbrev main_v97 : Ref sig .tc := ⟨.hbm, 137, rfl⟩
abbrev main_c_26 : Ref sig .tc := ⟨.hbm, 138, rfl⟩
abbrev main_v98 : Ref sig .tc := ⟨.hbm, 139, rfl⟩
abbrev main_v99 : Ref sig .tc := ⟨.hbm, 140, rfl⟩
abbrev main_c_27 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_call3_cst : Ref sig .tc := ⟨.hbm, 150, rfl⟩
abbrev main_call3_v0 : Ref sig .tc := ⟨.hbm, 151, rfl⟩
abbrev main_v108 : Ref sig .tc := ⟨.hbm, 152, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S_S3300000 : S_.BroadcastsInDim S3300000 (![] : Fin 0 → Fin S3300000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x7_0_1 : S3300000x1.BroadcastsInDim S3300000x7 (![0, 1] : Fin 2 → Fin S3300000x7.rank)
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x16_S100000x16_1_0_0_1_n_n_wf : DotDims.WF S100000x128 S128x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x7_S100000x7_1_0_0_1_n_n_wf : DotDims.WF S100000x16 S16x7 S100000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x7_S100000x7_1_0_0_1_n_n : DotDims S100000x16 S16x7 S100000x7 where
  lhsContracting := [1]
  rhsContracting := [0]
  lhsNonContracting := [0]
  rhsNonContracting := [1]
  lhsBatch := []
  rhsBatch := []
  wf := dot_S100000x16_S16x7_S100000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

class Facts : Prop extends Facts₀ where

variable [Facts]
-- ==== Proof.BridgeA.lean ====
/-
  The graph's index vectors, the edge weights and the arguments at the first region's entry.

  Before its first region the kernel's program computes, with the same host operations as the reference and from the
  same argument (the edge list), the source and destination index vectors with the self-loops appended, the degrees by
  a scatter-add of ones, their inverse square roots where positive, and the product of the two gathered inverse roots
  per edge: the edge weight. The reference's stages of the same names are the same terms. The kernel then views the
  weights [E] as a column [E, 1]. No operation before the first region writes an argument.
-/
import proofs.«107772_j63445256896634_1_alg».proof.Proof.Gen.KernelIdeal.Frame
import proofs.«107772_j63445256896634_1_alg».proof.Proof.RefRead
import Idealize.ShloMosaic.Lib.StableHlo.Run
import Idealize.ShloMosaic.Lib.Pipeline.Value

set_option maxRecDepth 16384

noncomputable section

open Idealize.ShloMosaic Idealize.ShloMosaic.TcCoe Idealize.SL.Sem Idealize.ShloMosaic.StableHlo

namespace Cert.Bridge

open Cert.KernelIdeal Cert.KernelIdeal.Gen
open Cert.ReferenceIdeal.ReadP

variable {F : FTy → Type} [FloatOps F]
variable (m : (ℓ : Loc nD τ sig) → Buf (Elt F) ℓ) (ρ : Dev nD → PrngReg) (c : Dev nD)

/-- The kernel's argument arrays as launched. -/
abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)
abbrev a5 := m ((c : Thread nD τ).loc main_arg5)

/-- The source indices with the self-loops appended. -/
theorem src3 : W3 m ρ c (Proc.devRef .tc main_v3) = val_main_v3 (F := F) (a1 m c) := by
  show after hostOps0_2 (after hostOps0_1 (after hostOps0 (W0 m ρ c))) (Proc.devRef .tc main_v3) = _
  after_results
  rfl

/-- The destination indices with the self-loops appended. -/
theorem dst3 : W3 m ρ c (Proc.devRef .tc main_v6) = val_main_v6 (F := F) (a1 m c) := by
  show after hostOps0_2 (after hostOps0_1 (after hostOps0 (W0 m ρ c))) (Proc.devRef .tc main_v6) = _
  after_results
  rfl

/-- The edge weights, viewed as a column. -/
theorem norm3 : W3 m ρ c (Proc.devRef .tc main_v35)
    = shapeCast S3300000x1 (val_main_v34 (F := F) (a1 m c)) shapeCasts_S3300000_S3300000x1 := by
  show after hostOps0_2 (after hostOps0_1 (after hostOps0 (W0 m ρ c))) (Proc.devRef .tc main_v35) = _
  after_results_simp
  rfl

theorem arg0_3 : W3 m ρ c (Proc.devRef .tc main_arg0) = a0 m c := by
  show after hostOps0_2 (after hostOps0_1 (after hostOps0 (W0 m ρ c))) (Proc.devRef .tc main_arg0) = _
  after_results
theorem arg2_3 : W3 m ρ c (Proc.devRef .tc main_arg2) = a2 m c := by
  show after hostOps0_2 (after hostOps0_1 (after hostOps0 (W0 m ρ c))) (Proc.devRef .tc main_arg2) = _
  after_results
theorem arg3_3 : W3 m ρ c (Proc.devRef .tc main_arg3) = a3 m c := by
  show after hostOps0_2 (after hostOps0_1 (after hostOps0 (W0 m ρ c))) (Proc.devRef .tc main_arg3) = _
  after_results
theorem arg4_3 : W3 m ρ c (Proc.devRef .tc main_arg4) = a4 m c := by
  show after hostOps0_2 (after hostOps0_1 (after hostOps0 (W0 m ρ c))) (Proc.devRef .tc main_arg4) = _
  after_results
theorem arg5_3 : W3 m ρ c (Proc.devRef .tc main_arg5) = a5 m c := by
  show after hostOps0_2 (after hostOps0_1 (after hostOps0 (W0 m ρ c))) (Proc.devRef .tc main_arg5) = _
  after_results

end Cert.Bridge

end
-- ==== Proof.BridgeHost.lean ====
/-
  The host operations between the regions, for any float family and from any contents.

  Between two regions the kernel's program normalises an index vector (a negative index has the extent added),
  views it as a column, and gathers rows of the previous region's result, or scatter-adds the previous region's
  result into zeros; the reference does the same with the same operations. So, given that the buffers a stretch
  reads hold the reference's stages, the buffer it computes holds the reference's next stage. The reference computes the edge weights a second time for its
  second layer, by the same operations from the same indices: the same term.
-/
import proofs.«107772_j63445256896634_1_alg».proof.Proof.Gen.KernelIdeal.Frame
import proofs.«107772_j63445256896634_1_alg».proof.Proof.RefRead
import Idealize.ShloMosaic.Lib.StableHlo.Run
import Idealize.ShloMosaic.Lib.Pipeline.Value

set_option maxRecDepth 16384

noncomputable section

open Idealize.ShloMosaic Idealize.ShloMosaic.TcCoe Idealize.SL.Sem Idealize.ShloMosaic.StableHlo

namespace Cert.Bridge

open Cert.KernelIdeal Cert.KernelIdeal.Gen
open Cert.ReferenceIdeal.ReadP

variable {F : FTy → Type} [FloatOps F]
variable (W : Valuation τ sig (Elt F))
variable (x0 : (⟨S100000x128, .f32⟩ : BufTy).Contents (Elt F)) (x1 : (⟨S2x3200000, .i32⟩ : BufTy).Contents (Elt F))
  (x2 : (⟨S128x16, .f32⟩ : BufTy).Contents (Elt F)) (x3 : (⟨S16, .f32⟩ : BufTy).Contents (Elt F))
  (x4 : (⟨S16x7, .f32⟩ : BufTy).Contents (Elt F)) (x5 : (⟨S7, .f32⟩ : BufTy).Contents (Elt F))

/-! ## Before region 1: the rows of the first product gathered at the source indices -/

theorem host1_v43 (h36 : W (Proc.devRef .tc main_v36) = val_main_v35 (F := F) x0 x2)
    (h3 : W (Proc.devRef .tc main_v3) = val_main_v3 (F := F) x1) :
    after hostOps1 W (Proc.devRef .tc main_v43) = val_main_v42 (F := F) x0 x1 x2 := by
  after_results
  rw [h36, h3]
  rfl

/-! ## Before region 2: the messages scatter-added at the destination indices; the bias as a row -/

set_option maxHeartbeats 1000000 in
theorem host2_v52 (h44 : W (Proc.devRef .tc main_v44) = val_main_v45 (F := F) x0 x1 x2)
    (h6 : W (Proc.devRef .tc main_v6) = val_main_v6 (F := F) x1) :
    after hostOps2 W (Proc.devRef .tc main_v52) = val_main_v53 (F := F) x0 x1 x2 := by
  after_results_simp
  rw [h44, h6]
  rfl
theorem host2_v53 (h : W (Proc.devRef .tc main_arg3) = x3) :
    after hostOps2 W (Proc.devRef .tc main_v53) = shapeCast S1x16 x3 shapeCasts_S16_S1x16 := by
  after_results
  rw [h]
  rfl

/-! ## Before region 4: the rows of the second product gathered at the source indices -/

theorem host4_v62 (h55 : W (Proc.devRef .tc main_v55) = val_main_v86 (F := F) x0 x1 x2 x3 x4)
    (h3 : W (Proc.devRef .tc main_v3) = val_main_v3 (F := F) x1) :
    after hostOps4 W (Proc.devRef .tc main_v62) = val_main_v93 (F := F) x0 x1 x2 x3 x4 := by
  after_results
  rw [h55, h3]
  rfl

/-! ## Before region 5: the messages scatter-added at the destination indices; the bias as a row -/

set_option maxHeartbeats 1000000 in
theorem host5_v71 (h63 : W (Proc.devRef .tc main_v63) = val_main_v96 (F := F) x0 x1 x2 x3 x4)
    (h6 : W (Proc.devRef .tc main_v6) = val_main_v6 (F := F) x1) :
    after hostOps5 W (Proc.devRef .tc main_v71) = val_main_v104 (F := F) x0 x1 x2 x3 x4 := by
  after_results_simp
  rw [h63, h6]
  rfl
theorem host5_v72 (h : W (Proc.devRef .tc main_arg5) = x5) :
    after hostOps5 W (Proc.devRef .tc main_v72) = shapeCast S1x7 x5 shapeCasts_S7_S1x7 := by
  after_results
  rw [h]
  rfl

/-! ## The reference's second computation of the edge weights is its first -/

theorem norm_again : val_main_v85 (F := F) x1 = val_main_v34 (F := F) x1 := rfl

end Cert.Bridge

end
-- ==== Proof.HostKept.lean ====
/- A host stretch leaves every buffer it does not write as it found it: the buffers a later step of @main reads. -/
import proofs.«107772_j63445256896634_1_alg».proof.Proof.Gen.KernelIdeal.Frame
import Idealize.ShloMosaic.Lib.StableHlo.Run
import Idealize.ShloMosaic.Lib.Pipeline.Value

set_option maxRecDepth 16384

noncomputable section

open Idealize.ShloMosaic Idealize.ShloMosaic.TcCoe Idealize.SL.Sem Idealize.ShloMosaic.StableHlo

namespace Cert.Bridge

open Cert.KernelIdeal Cert.KernelIdeal.Gen

variable {F : FTy → Type} [FloatOps F]
variable (W : Valuation τ sig (Elt F))

theorem host1_v3 : after hostOps1 W (Proc.devRef .tc main_v3) = W (Proc.devRef .tc main_v3) := by after_results
theorem host1_v6 : after hostOps1 W (Proc.devRef .tc main_v6) = W (Proc.devRef .tc main_v6) := by after_results
theorem host1_v35 : after hostOps1 W (Proc.devRef .tc main_v35) = W (Proc.devRef .tc main_v35) := by after_results
theorem host1_arg3 : after hostOps1 W (Proc.devRef .tc main_arg3) = W (Proc.devRef .tc main_arg3) := by after_results
theorem host1_arg4 : after hostOps1 W (Proc.devRef .tc main_arg4) = W (Proc.devRef .tc main_arg4) := by after_results
theorem host1_arg5 : after hostOps1 W (Proc.devRef .tc main_arg5) = W (Proc.devRef .tc main_arg5) := by after_results
theorem host2_v3 : after hostOps2 W (Proc.devRef .tc main_v3) = W (Proc.devRef .tc main_v3) := by after_results
theorem host2_v6 : after hostOps2 W (Proc.devRef .tc main_v6) = W (Proc.devRef .tc main_v6) := by after_results
theorem host2_v35 : after hostOps2 W (Proc.devRef .tc main_v35) = W (Proc.devRef .tc main_v35) := by after_results
theorem host2_arg4 : after hostOps2 W (Proc.devRef .tc main_arg4) = W (Proc.devRef .tc main_arg4) := by after_results
theorem host2_arg5 : after hostOps2 W (Proc.devRef .tc main_arg5) = W (Proc.devRef .tc main_arg5) := by after_results
theorem host4_v6 : after hostOps4 W (Proc.devRef .tc main_v6) = W (Proc.devRef .tc main_v6) := by after_results
theorem host4_v35 : after hostOps4 W (Proc.devRef .tc main_v35) = W (Proc.devRef .tc main_v35) := by after_results
theorem host4_arg5 : after hostOps4 W (Proc.devRef .tc main_arg5) = W (Proc.devRef .tc main_arg5) := by after_results

end Cert.Bridge

end
-- ==== Proof.Kept.lean ====
/- Segment boundary by segment boundary, the index vectors, the weights' column and the later arguments still hold what they held at the first region's entry: no region writes them and no host stretch does. -/
import proofs.«107772_j63445256896634_1_alg».proof.Proof.BridgeA
import proofs.«107772_j63445256896634_1_alg».proof.Proof.HostKept
import Idealize.ShloMosaic.Lib.StableHlo.Run
import Idealize.ShloMosaic.Lib.Pipeline.Value

set_option maxRecDepth 16384

noncomputable section

open Idealize.ShloMosaic Idealize.ShloMosaic.TcCoe Idealize.SL.Sem Idealize.ShloMosaic.StableHlo

namespace Cert.Bridge

open Cert.KernelIdeal Cert.KernelIdeal.Gen
open Cert.ReferenceIdeal.ReadP

variable (m : (ℓ : Loc nD τ sig) → Buf (Elt Ideal) ℓ) (ρ : Dev nD → PrngReg) (c : Dev nD)

theorem v3_4 : W4 m ρ c (Proc.devRef .tc main_v3) = val_main_v3 (F := Ideal) (a1 m c) :=
  (W4_of_ne m ρ c main_v3 (by decide)).trans (src3 m ρ c)
theorem v6_4 : W4 m ρ c (Proc.devRef .tc main_v6) = val_main_v6 (F := Ideal) (a1 m c) :=
  (W4_of_ne m ρ c main_v6 (by decide)).trans (dst3 m ρ c)
theorem v35_4 : W4 m ρ c (Proc.devRef .tc main_v35) = shapeCast S3300000x1 (val_main_v34 (F := Ideal) (a1 m c)) shapeCasts_S3300000_S3300000x1 :=
  (W4_of_ne m ρ c main_v35 (by decide)).trans (norm3 m ρ c)
theorem arg3_4 : W4 m ρ c (Proc.devRef .tc main_arg3) = a3 m c :=
  (W4_of_ne m ρ c main_arg3 (by decide)).trans (arg3_3 m ρ c)
theorem arg4_4 : W4 m ρ c (Proc.devRef .tc main_arg4) = a4 m c :=
  (W4_of_ne m ρ c main_arg4 (by decide)).trans (arg4_3 m ρ c)
theorem arg5_4 : W4 m ρ c (Proc.devRef .tc main_arg5) = a5 m c :=
  (W4_of_ne m ρ c main_arg5 (by decide)).trans (arg5_3 m ρ c)
theorem v3_5 : W5 m ρ c (Proc.devRef .tc main_v3) = val_main_v3 (F := Ideal) (a1 m c) :=
  (host1_v3 (W4 m ρ c)).trans (v3_4 m ρ c)
theorem v6_5 : W5 m ρ c (Proc.devRef .tc main_v6) = val_main_v6 (F := Ideal) (a1 m c) :=
  (host1_v6 (W4 m ρ c)).trans (v6_4 m ρ c)
theorem v35_5 : W5 m ρ c (Proc.devRef .tc main_v35) = shapeCast S3300000x1 (val_main_v34 (F := Ideal) (a1 m c)) shapeCasts_S3300000_S3300000x1 :=
  (host1_v35 (W4 m ρ c)).trans (v35_4 m ρ c)
theorem arg3_5 : W5 m ρ c (Proc.devRef .tc main_arg3) = a3 m c :=
  (host1_arg3 (W4 m ρ c)).trans (arg3_4 m ρ c)
theorem arg4_5 : W5 m ρ c (Proc.devRef .tc main_arg4) = a4 m c :=
  (host1_arg4 (W4 m ρ c)).trans (arg4_4 m ρ c)
theorem arg5_5 : W5 m ρ c (Proc.devRef .tc main_arg5) = a5 m c :=
  (host1_arg5 (W4 m ρ c)).trans (arg5_4 m ρ c)
theorem v3_6 : W6 m ρ c (Proc.devRef .tc main_v3) = val_main_v3 (F := Ideal) (a1 m c) :=
  (W6_of_ne m ρ c main_v3 (by decide)).trans (v3_5 m ρ c)
theorem v6_6 : W6 m ρ c (Proc.devRef .tc main_v6) = val_main_v6 (F := Ideal) (a1 m c) :=
  (W6_of_ne m ρ c main_v6 (by decide)).trans (v6_5 m ρ c)
theorem arg3_6 : W6 m ρ c (Proc.devRef .tc main_arg3) = a3 m c :=
  (W6_of_ne m ρ c main_arg3 (by decide)).trans (arg3_5 m ρ c)
theorem arg4_6 : W6 m ρ c (Proc.devRef .tc main_arg4) = a4 m c :=
  (W6_of_ne m ρ c main_arg4 (by decide)).trans (arg4_5 m ρ c)
theorem arg5_6 : W6 m ρ c (Proc.devRef .tc main_arg5) = a5 m c :=
  (W6_of_ne m ρ c main_arg5 (by decide)).trans (arg5_5 m ρ c)
theorem v35_6 : W6 m ρ c (Proc.devRef .tc main_v35) = shapeCast S3300000x1 (val_main_v34 (F := Ideal) (a1 m c)) shapeCasts_S3300000_S3300000x1 :=
  ((show W6 m ρ c (Proc.devRef .tc main_v35) = W5 m ρ c (Proc.devRef .tc main_v35) from
    (W6_arr m ρ c 1).trans (((dat1 (V5 m ρ) c).arrAt_in 1 rfl _).trans (A_eq1 (V5 m ρ) c 1)))).trans (v35_5 m ρ c)
theorem v3_7 : W7 m ρ c (Proc.devRef .tc main_v3) = val_main_v3 (F := Ideal) (a1 m c) :=
  (host2_v3 (W6 m ρ c)).trans (v3_6 m ρ c)
theorem v6_7 : W7 m ρ c (Proc.devRef .tc main_v6) = val_main_v6 (F := Ideal) (a1 m c) :=
  (host2_v6 (W6 m ρ c)).trans (v6_6 m ρ c)
theorem v35_7 : W7 m ρ c (Proc.devRef .tc main_v35) = shapeCast S3300000x1 (val_main_v34 (F := Ideal) (a1 m c)) shapeCasts_S3300000_S3300000x1 :=
  (host2_v35 (W6 m ρ c)).trans (v35_6 m ρ c)
theorem arg4_7 : W7 m ρ c (Proc.devRef .tc main_arg4) = a4 m c :=
  (host2_arg4 (W6 m ρ c)).trans (arg4_6 m ρ c)
theorem arg5_7 : W7 m ρ c (Proc.devRef .tc main_arg5) = a5 m c :=
  (host2_arg5 (W6 m ρ c)).trans (arg5_6 m ρ c)
theorem v3_8 : W8 m ρ c (Proc.devRef .tc main_v3) = val_main_v3 (F := Ideal) (a1 m c) :=
  (W8_of_ne m ρ c main_v3 (by decide)).trans (v3_7 m ρ c)
theorem v6_8 : W8 m ρ c (Proc.devRef .tc main_v6) = val_main_v6 (F := Ideal) (a1 m c) :=
  (W8_of_ne m ρ c main_v6 (by decide)).trans (v6_7 m ρ c)
theorem v35_8 : W8 m ρ c (Proc.devRef .tc main_v35) = shapeCast S3300000x1 (val_main_v34 (F := Ideal) (a1 m c)) shapeCasts_S3300000_S3300000x1 :=
  (W8_of_ne m ρ c main_v35 (by decide)).trans (v35_7 m ρ c)
theorem arg4_8 : W8 m ρ c (Proc.devRef .tc main_arg4) = a4 m c :=
  (W8_of_ne m ρ c main_arg4 (by decide)).trans (arg4_7 m ρ c)
theorem arg5_8 : W8 m ρ c (Proc.devRef .tc main_arg5) = a5 m c :=
  (W8_of_ne m ρ c main_arg5 (by decide)).trans (arg5_7 m ρ c)
theorem v3_9 : W9 m ρ c (Proc.devRef .tc main_v3) = val_main_v3 (F := Ideal) (a1 m c) :=
  (W9_of_ne m ρ c main_v3 (by decide)).trans (v3_8 m ρ c)
theorem v6_9 : W9 m ρ c (Proc.devRef .tc main_v6) = val_main_v6 (F := Ideal) (a1 m c) :=
  (W9_of_ne m ρ c main_v6 (by decide)).trans (v6_8 m ρ c)
theorem v35_9 : W9 m ρ c (Proc.devRef .tc main_v35) = shapeCast S3300000x1 (val_main_v34 (F := Ideal) (a1 m c)) shapeCasts_S3300000_S3300000x1 :=
  (W9_of_ne m ρ c main_v35 (by decide)).trans (v35_8 m ρ c)
theorem arg5_9 : W9 m ρ c (Proc.devRef .tc main_arg5) = a5 m c :=
  (W9_of_ne m ρ c main_arg5 (by decide)).trans (arg5_8 m ρ c)
theorem v6_10 : W10 m ρ c (Proc.devRef .tc main_v6) = val_main_v6 (F := Ideal) (a1 m c) :=
  (host4_v6 (W9 m ρ c)).trans (v6_9 m ρ c)
theorem v35_10 : W10 m ρ c (Proc.devRef .tc main_v35) = shapeCast S3300000x1 (val_main_v34 (F := Ideal) (a1 m c)) shapeCasts_S3300000_S3300000x1 :=
  (host4_v35 (W9 m ρ c)).trans (v35_9 m ρ c)
theorem arg5_10 : W10 m ρ c (Proc.devRef .tc main_arg5) = a5 m c :=
  (host4_arg5 (W9 m ρ c)).trans (arg5_9 m ρ c)
theorem v6_11 : W11 m ρ c (Proc.devRef .tc main_v6) = val_main_v6 (F := Ideal) (a1 m c) :=
  (W11_of_ne m ρ c main_v6 (by decide)).trans (v6_10 m ρ c)
theorem arg5_11 : W11 m ρ c (Proc.devRef .tc main_arg5) = a5 m c :=
  (W11_of_ne m ρ c main_arg5 (by decide)).trans (arg5_10 m ρ c)

end Cert.Bridge

end
-- ==== Proof.Matmul16.lean ====
/-
  The first feature product, as one function of whole arrays.

  The region multiplies an [N, 128] array, N = 100 000, read in 20 blocks of 5000 rows, by a [128, 16] matrix that
  every block sees whole, into a zero accumulator. The two changes of float format in the body are the identity on
  extended reals, so entry (r, f) of a block's result is the sum over k < 128 of entry (r, k) of the rows times entry
  (k, f) of the matrix: no sum is split or reordered, a block only selects rows. The blocks tile the rows, so after
  the last write-back the whole result array is the full product.
-/
import proofs.«107772_j63445256896634_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Matmul16

open Cert.KernelIdeal Cert.KernelIdeal.Gen

variable (V : (c : Dev nD) → (b : Ref sig .tc) → Buf (Elt Ideal) ((c : Thread nD τ).loc b))

theorem offsets_zero : (![0, 0] : Fin 2 → Nat) = fun _ => 0 := funext fun a => by fin_cases a <;> rfl

/-- Entry (r, k) of the left operand, for result index `i` = (r, f). -/
abbrev lrow (i : S100000x16.Idx) (k : Fin 128) : S100000x128.Idx := fun a => match a with
  | ⟨0, _⟩ => ⟨(i 0).val, (i 0).isLt⟩
  | ⟨1, _⟩ => ⟨k.val, k.isLt⟩
/-- Entry (k, f) of the right operand, for result index `i` = (r, f). -/
abbrev rcol (i : S100000x16.Idx) (k : Fin 128) : S128x16.Idx := fun a => match a with
  | ⟨0, _⟩ => ⟨k.val, k.isLt⟩
  | ⟨1, _⟩ => ⟨(i 1).val, (i 1).isLt⟩

/-- The matrix product, index by index. -/
def prod (x : S100000x128.Idx → EReal) (w : S128x16.Idx → EReal) : S100000x16.Idx → EReal :=
  fun i => ∑ k : Fin 128, x (lrow i k) * w (rcol i k)

/-- The features and the weights as the region finds them, at their literal types. -/
abbrev xArr (c : Dev nD) : S100000x128.Idx → EReal := V c main_arg0
abbrev wArr (c : Dev nD) : S128x16.Idx → EReal := V c main_arg2

theorem lhs_0 (i : S5000x16.Idx) (q : dot_S5000x128_S128x16_S5000x16_1_0_0_1_n_n.contr.Idx) :
    (dot_S5000x128_S128x16_S5000x16_1_0_0_1_n_n.lhsIdx i q 0).val = (i 0).val := by
  unfold DotDims.lhsIdx
  rw [dif_neg (show ¬(0 : Fin S5000x128.rank) ∈ dot_S5000x128_S128x16_S5000x16_1_0_0_1_n_n.lhsBatch by decide), dif_pos (show (0 : Fin S5000x128.rank) ∈ dot_S5000x128_S128x16_S5000x16_1_0_0_1_n_n.lhsNonContracting by decide)]
  rfl
theorem lhs_1 (i : S5000x16.Idx) (q : dot_S5000x128_S128x16_S5000x16_1_0_0_1_n_n.contr.Idx) :
    (dot_S5000x128_S128x16_S5000x16_1_0_0_1_n_n.lhsIdx i q 1).val = (q ⟨0, by decide⟩).val :=
  dot_S5000x128_S128x16_S5000x16_1_0_0_1_n_n.lhsIdx_val_of_single rfl i q
theorem rhs_0 (i : S5000x16.Idx) (q : dot_S5000x128_S128x16_S5000x16_1_0_0_1_n_n.contr.Idx) :
    (dot_S5000x128_S128x16_S5000x16_1_0_0_1_n_n.rhsIdx i q 0).val = (q ⟨0, by decide⟩).val :=
  dot_S5000x128_S128x16_S5000x16_1_0_0_1_n_n.rhsIdx_val_of_single rfl i q
theorem rhs_1 (i : S5000x16.Idx) (q : dot_S5000x128_S128x16_S5000x16_1_0_0_1_n_n.contr.Idx) :
    (dot_S5000x128_S128x16_S5000x16_1_0_0_1_n_n.rhsIdx i q 1).val = (i 1).val := by
  unfold DotDims.rhsIdx
  rw [dif_neg (show ¬(1 : Fin S128x16.rank) ∈ dot_S5000x128_S128x16_S5000x16_1_0_0_1_n_n.rhsBatch by decide), dif_pos (show (1 : Fin S128x16.rank) ∈ dot_S5000x128_S128x16_S5000x16_1_0_0_1_n_n.rhsNonContracting by decide)]
  rfl

/-- Inside a block: the product at (p, q) is the sum over k of rows (p, k) times matrix (k, q). -/
theorem body_at (x0 : Vec Ideal S5000x128 .f32) (x1 : Vec Ideal S128x16 .f32) (p : Fin 5000) (q : Fin 16) :
    k0_pay1 x0 x1 (ix2 p q) = ∑ k : Fin 128, x0 (ix2 p k) * x1 (ix2 k q) := by
  unfold k0_pay1
  simp only [matmul]
  rw [Ideal.matmul_constant_zero_apply, ← Equiv.sum_comp (ValueIdx.contrEquiv1 dot_S5000x128_S128x16_S5000x16_1_0_0_1_n_n 128 rfl rfl).symm]
  refine Finset.sum_congr rfl fun k _ => ?_
  have hk := ValueIdx.contrEquiv1_symm_val dot_S5000x128_S128x16_S5000x16_1_0_0_1_n_n 128 rfl rfl k
  have el : dot_S5000x128_S128x16_S5000x16_1_0_0_1_n_n.lhsIdx (ix2 p q) ((ValueIdx.contrEquiv1 dot_S5000x128_S128x16_S5000x16_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x16_S5000x16_1_0_0_1_n_n.rhsIdx (ix2 p q) ((ValueIdx.contrEquiv1 dot_S5000x128_S128x16_S5000x16_1_0_0_1_n_n 128 rfl rfl).symm k) = ix2 k q := funext fun a => Fin.ext (by
    match a with
    | ⟨0, _⟩ => exact (rhs_0 _ _).trans hk
    | ⟨1, _⟩ => exact rhs_1 _ _)
  rw [el, er]
  rfl

/-- At point `t` the rows' and the result's windows hold block `t`; the matrix's window always holds the matrix. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the arrays the region was entered with. -/
theorem writes_block (c : Dev nD) (t : Fin cfg0.N) :
    (dat0 V c).flushed 2 t = ((cfg0.win 2).blk t).view.read (Elt Ideal) (prod (xArr V c) (wArr V c)) := by
  show (cfg0.win 2).cut (grid0.coords t) ((dat0 V c).after 2 t) = _
  rw [after0_2]
  unfold out0_2
  rw [View.canon_unit_zero offsets_zero]
  simp only [View.ld_unit_zero (S := S5000x128) offsets_zero, View.ld_unit_zero (S := S128x16) offsets_zero]
  obtain ⟨e0, e1, e2, e3, e4, e5⟩ := block_indices t
  funext j
  obtain ⟨p, q, rfl⟩ : ∃ (p : Fin 5000) (q : Fin 16), j = ix2 p q := ⟨j 0, j 1, eq_ix2 j⟩
  refine (body_at _ _ p q).trans ?_
  show (∑ k : Fin 128, xArr V c (((cfg0.win 0).blk t).view.emb (ix2 p k)) * wArr V c (((cfg0.win 1).blk t).view.emb (ix2 k q)))
    = ∑ k : Fin 128, xArr V c (lrow (((cfg0.win 2).blk t).view.emb (ix2 p q)) k) * wArr V c (rcol (((cfg0.win 2).blk t).view.emb (ix2 p q)) k)
  refine Finset.sum_congr rfl fun k _ => ?_
  have h0 : ((cfg0.win 0).blk t).view.emb (ix2 p k) = lrow (((cfg0.win 2).blk t).view.emb (ix2 p q)) k := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  have h1 : ((cfg0.win 1).blk t).view.emb (ix2 k q) = rcol (((cfg0.win 2).blk t).view.emb (ix2 p q)) k := by
    funext a; apply Fin.ext
    match a with
    | ⟨0, _⟩ => show win0_1.index t (0 : Fin 2) * 128 + 1 * k.val = k.val; omega
    | ⟨1, _⟩ => show win0_1.index t (1 : Fin 2) * 16 + 1 * q.val = win0_2.index t (1 : Fin 2) * 16 + 1 * q.val; omega
  rw [h0, h1]

/-- An index of the result array is in point `t`'s block iff each coordinate is in the block's range on its axis. -/
theorem mem_block_iff (t : Fin cfg0.N) (i : S100000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v36).slice (win0_2.rect t)).set ↔ _
  rw [View.set_slice_whole, Rect.mem_set_unit]
  exact Iff.rfl

/-- Row `r` lies in the block of point `r / 5000`: the blocks tile the array. -/
theorem rows_tiled (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  have hN : grid0.N = 20 := N_0
  have ht : (i 0).val / 5000 < grid0.N := by rw [hN]; omega
  refine ⟨⟨(i 0).val / 5000, ht⟩, flush0_2 _, ?_⟩
  rw [mem_block_iff]
  obtain ⟨-, -, -, -, e4, e5⟩ := block_indices ⟨(i 0).val / 5000, ht⟩
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ (1 : Fin 2) * 16 ≤ (i 1).val ∧ (i 1).val < win0_2.index ⟨(i 0).val / 5000, ht⟩ (1 : Fin 2) * 16 + 16
    rw [e5]; omega

/-- After the region the result array is the product, whatever the region was entered with. -/
theorem array_after (c : Dev nD) : (dat0 V c).arrAt 2 cfg0.N = prod (xArr V c) (wArr V c) :=
  (dat0 V c).arrAt_eq_of_cover 2 (prod (xArr V c) (wArr V c)) (fun t _ => writes_block V c t) rows_tiled

/-- The same, with the two input arrays named by the caller. -/
theorem array_after_of (c : Dev nD) (x : S100000x128.Idx → EReal) (w : S128x16.Idx → EReal)
    (hx : V c main_arg0 = x) (hw : V c main_arg2 = w) : (dat0 V c).arrAt 2 cfg0.N = prod x w := by
  subst hx hw; exact array_after V c

end Cert.KernelIdeal.Matmul16

end
-- ==== Proof.Scale16.lean ====
/-
  The edge-message product of the first layer, as one function of whole arrays.

  The region multiplies an [E, 16] array of gathered rows by an [E, 1] column, E = 3 300 000, in 500 blocks of 6600
  rows: block t holds rows 6600·t … 6600·t + 6599 of all three arrays, and inside a block the column is broadcast along
  the row, so entry (r, f) of the result is entry (r, f) of the rows times entry (r, 0) of the column. The blocks tile
  the rows, so after the last write-back the whole result array is that product.
-/
import proofs.«107772_j63445256896634_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Scale16

open Cert.KernelIdeal Cert.KernelIdeal.Gen

variable (V : (c : Dev nD) → (b : Ref sig .tc) → Buf (Elt Ideal) ((c : Thread nD τ).loc b))

theorem offsets_zero : (![0, 0] : Fin 2 → Nat) = fun _ => 0 := funext fun a => by fin_cases a <;> rfl

/-- The column entry that scales row `i 0`. -/
abbrev colOf (i : S3300000x16.Idx) : S3300000x1.Idx := fun a => match a with
  | ⟨0, _⟩ => ⟨(i 0).val, (i 0).isLt⟩
  | ⟨1, _⟩ => ⟨0, Nat.one_pos⟩

/-- Every row of `h` multiplied by its entry of the column `n`. -/
def scaled (h : S3300000x16.Idx → EReal) (n : S3300000x1.Idx → EReal) : S3300000x16.Idx → EReal :=
  fun i => h i * n (colOf i)

/-- The gathered rows and the column as the region finds them, at their literal types. -/
abbrev rowsArr (c : Dev nD) : S3300000x16.Idx → EReal := V c main_v43
abbrev colArr (c : Dev nD) : S3300000x1.Idx → EReal := V c main_v35

/-- Inside a block: the product at (p, q) is the rows' entry (p, q) times the column's entry (p, 0). -/
theorem body_at (x0 : Vec Ideal S6600x16 .f32) (x1 : Vec Ideal S6600x1 .f32) (p : Fin 6600) (q : Fin 16) :
    k1_pay1 x0 x1 (ix2 p q) = x0 (ix2 p q) * x1 (ix2 p (0 : Fin 1)) := by
  unfold k1_pay1
  simp only [shapeCast_self]
  show (x0 (ix2 p q) : EReal) * broadcastTo S6600x16 x1 broadcasts_S6600x1_S6600x16 (ix2 p q) = _
  rw [broadcastTo_apply x1 broadcasts_S6600x1_S6600x16 (ix2 p q) (ix2 p (0 : Fin 1)) (fun ax => by
    match ax with
    | ⟨0, _⟩ => show p.val = if (6600 : Nat) = 1 then 0 else p.val; rw [if_neg (by decide)]
    | ⟨1, _⟩ => rfl)]

/-- The three windows move together: at point `t` each holds block `t` of its array's rows. -/
theorem block_indices : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the product of the arrays the region was entered with. -/
theorem writes_block (c : Dev nD) (t : Fin cfg1.N) :
    (dat1 V c).flushed 2 t = ((cfg1.win 2).blk t).view.read (Elt Ideal) (scaled (rowsArr V c) (colArr V c)) := by
  show (cfg1.win 2).cut (grid1.coords t) ((dat1 V c).after 2 t) = _
  rw [after1_2]
  unfold out1_2
  rw [View.canon_unit_zero offsets_zero]
  simp only [View.ld_unit_zero (S := S6600x16) offsets_zero, View.ld_unit_zero (S := S6600x1) offsets_zero]
  obtain ⟨e0, e1, e2, e3, e4, e5⟩ := block_indices t
  funext j
  obtain ⟨p, q, rfl⟩ : ∃ (p : Fin 6600) (q : Fin 16), j = ix2 p q := ⟨j 0, j 1, eq_ix2 j⟩
  refine (body_at _ _ p q).trans ?_
  show rowsArr V c (((cfg1.win 0).blk t).view.emb (ix2 p q)) * colArr V c (((cfg1.win 1).blk t).view.emb (ix2 p (0 : Fin 1)))
    = rowsArr V c (((cfg1.win 2).blk t).view.emb (ix2 p q)) * colArr V c (colOf (((cfg1.win 2).blk t).view.emb (ix2 p q)))
  have h0 : ((cfg1.win 0).blk t).view.emb (ix2 p q) = ((cfg1.win 2).blk t).view.emb (ix2 p q) := by
    funext a; apply Fin.ext
    match a with
    | ⟨0, _⟩ => show win1_0.index t (0 : Fin 2) * 6600 + 1 * p.val = win1_2.index t (0 : Fin 2) * 6600 + 1 * p.val; omega
    | ⟨1, _⟩ => show win1_0.index t (1 : Fin 2) * 16 + 1 * q.val = win1_2.index t (1 : Fin 2) * 16 + 1 * q.val; omega
  have h1 : ((cfg1.win 1).blk t).view.emb (ix2 p (0 : Fin 1)) = colOf (((cfg1.win 2).blk t).view.emb (ix2 p q)) := by
    funext a; apply Fin.ext
    match a with
    | ⟨0, _⟩ => show win1_1.index t (0 : Fin 2) * 6600 + 1 * p.val = win1_2.index t (0 : Fin 2) * 6600 + 1 * p.val; omega
    | ⟨1, _⟩ => show win1_1.index t (1 : Fin 2) * 1 + 1 * 0 = 0; omega
  rw [h0, h1]

/-- An index of the result array is in point `t`'s block iff each coordinate is in the block's range on its axis. -/
theorem mem_block_iff (t : Fin cfg1.N) (i : S3300000x16.Idx) :
    i ∈ ((cfg1.win 2).blk t).view.set ↔ ∀ a : Fin 2, win1_2.index t a * S6600x16.size a ≤ (i a).val ∧ (i a).val < win1_2.index t a * S6600x16.size a + S6600x16.size a := by
  show i ∈ ((View.whole main_v44).slice (win1_2.rect t)).set ↔ _
  rw [View.set_slice_whole, Rect.mem_set_unit]
  exact Iff.rfl

/-- Row `r` lies in the block of point `r / 6600`: the blocks tile the array. -/
theorem rows_tiled (i : S3300000x16.Idx) : ∃ t : Fin cfg1.N, (cfg1.win 2).flush t = true ∧ i ∈ ((cfg1.win 2).blk t).view.set := by
  have hi0 : (i 0).val < 3300000 := (i 0).isLt
  have hi1 : (i 1).val < 16 := (i 1).isLt
  have hN : grid1.N = 500 := N_1
  have ht : (i 0).val / 6600 < grid1.N := by rw [hN]; omega
  refine ⟨⟨(i 0).val / 6600, ht⟩, flush1_2 _, ?_⟩
  rw [mem_block_iff]
  obtain ⟨-, -, -, -, e4, e5⟩ := block_indices ⟨(i 0).val / 6600, ht⟩
  intro a
  match a with
  | ⟨0, _⟩ =>
    show win1_2.index ⟨(i 0).val / 6600, ht⟩ (0 : Fin 2) * 6600 ≤ (i 0).val ∧ (i 0).val < win1_2.index ⟨(i 0).val / 6600, ht⟩ (0 : Fin 2) * 6600 + 6600
    rw [e4]; show (i 0).val / 6600 * 6600 ≤ (i 0).val ∧ (i 0).val < (i 0).val / 6600 * 6600 + 6600; omega
  | ⟨1, _⟩ =>
    show win1_2.index ⟨(i 0).val / 6600, ht⟩ (1 : Fin 2) * 16 ≤ (i 1).val ∧ (i 1).val < win1_2.index ⟨(i 0).val / 6600, ht⟩ (1 : Fin 2) * 16 + 16
    rw [e5]; omega

/-- After the region the result array is the rows scaled by the column, whatever the region was entered with. -/
theorem array_after (c : Dev nD) : (dat1 V c).arrAt 2 cfg1.N = scaled (rowsArr V c) (colArr V c) :=
  (dat1 V c).arrAt_eq_of_cover 2 (scaled (rowsArr V c) (colArr V c)) (fun t _ => writes_block V c t) rows_tiled

/-- The same, with the two input arrays named by the caller. -/
theorem array_after_of (c : Dev nD) (h : S3300000x16.Idx → EReal) (n : S3300000x1.Idx → EReal)
    (hh : V c main_v43 = h) (hn : V c main_v35 = n) : (dat1 V c).arrAt 2 cfg1.N = scaled h n := by
  subst hh hn; exact array_after V c

end Cert.KernelIdeal.Scale16

end
-- ==== Proof.BiasRelu16.lean ====
/-
  Bias and ReLU after the first aggregation, as one function of whole arrays.

  The region reads an [N, 16] array, N = 100 000, in 20 blocks of 5000 rows, and a [1, 16] row that every block sees
  whole. Inside a block the row is broadcast down the rows, so entry (r, f) of the result is the larger of zero and
  entry (r, f) of the array plus entry (0, f) of the row. The blocks tile the rows, so after the last write-back the
  whole result array is that function of the two arrays.
-/
import proofs.«107772_j63445256896634_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.BiasRelu16

open Cert.KernelIdeal Cert.KernelIdeal.Gen

variable (V : (c : Dev nD) → (b : Ref sig .tc) → Buf (Elt Ideal) ((c : Thread nD τ).loc b))

theorem offsets_zero : (![0, 0] : Fin 2 → Nat) = fun _ => 0 := funext fun a => by fin_cases a <;> rfl

/-- The bias entry added along column `i 1`. -/
abbrev rowOf (i : S100000x16.Idx) : S1x16.Idx := fun a => match a with
  | ⟨0, _⟩ => ⟨0, Nat.one_pos⟩
  | ⟨1, _⟩ => ⟨(i 1).val, (i 1).isLt⟩

/-- The bias row added to every row of `a`, then the maximum with zero. -/
def biasRelu (a : S100000x16.Idx → EReal) (b : S1x16.Idx → EReal) : S100000x16.Idx → EReal :=
  fun i => max (a i + b (rowOf i)) (Scalar.ofBits (F := Ideal) .f32 0x00000000#32)

/-- The aggregated array and the bias row as the region finds them, at their literal types. -/
abbrev aggArr (c : Dev nD) : S100000x16.Idx → EReal := V c main_v52
abbrev biasArr (c : Dev nD) : S1x16.Idx → EReal := V c main_v53

/-- Inside a block: the result at (p, q) is max (a (p, q) + b (0, q)) 0. -/
theorem body_at (x0 : Vec Ideal S5000x16 .f32) (x1 : Vec Ideal S1x16 .f32) (p : Fin 5000) (q : Fin 16) :
    k2_pay1 x0 x1 (ix2 p q) = max (x0 (ix2 p q) + x1 (ix2 (0 : Fin 1) q)) (Scalar.ofBits (F := Ideal) .f32 0x00000000#32) := by
  unfold k2_pay1
  simp only [shapeCast_self]
  show max ((x0 (ix2 p q) : EReal) + broadcastTo S5000x16 x1 broadcasts_S1x16_S5000x16 (ix2 p q)) _ = _
  rw [broadcastTo_apply x1 broadcasts_S1x16_S5000x16 (ix2 p q) (ix2 (0 : Fin 1) q) (fun ax => by
    match ax with
    | ⟨0, _⟩ => show (0 : Nat) = if (1 : Nat) = 1 then 0 else p.val; rw [if_pos rfl]
    | ⟨1, _⟩ => show q.val = if (16 : Nat) = 1 then 0 else q.val; rw [if_neg (by decide)])]
  rfl

/-- At point `t` the array's windows hold block `t` of the rows; the bias window always holds the one row. -/
theorem block_indices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of `biasRelu` of the arrays the region was entered with. -/
theorem writes_block (c : Dev nD) (t : Fin cfg2.N) :
    (dat2 V c).flushed 2 t = ((cfg2.win 2).blk t).view.read (Elt Ideal) (biasRelu (aggArr V c) (biasArr V c)) := by
  show (cfg2.win 2).cut (grid2.coords t) ((dat2 V c).after 2 t) = _
  rw [after2_2]
  unfold out2_2
  rw [View.canon_unit_zero offsets_zero]
  simp only [View.ld_unit_zero (S := S5000x16) offsets_zero, View.ld_unit_zero (S := S1x16) offsets_zero]
  obtain ⟨e0, e1, e2, e3, e4, e5⟩ := block_indices t
  funext j
  obtain ⟨p, q, rfl⟩ : ∃ (p : Fin 5000) (q : Fin 16), j = ix2 p q := ⟨j 0, j 1, eq_ix2 j⟩
  refine (body_at _ _ p q).trans ?_
  show max (aggArr V c (((cfg2.win 0).blk t).view.emb (ix2 p q)) + biasArr V c (((cfg2.win 1).blk t).view.emb (ix2 (0 : Fin 1) q))) _
    = max (aggArr V c (((cfg2.win 2).blk t).view.emb (ix2 p q)) + biasArr V c (rowOf (((cfg2.win 2).blk t).view.emb (ix2 p q)))) _
  have h0 : ((cfg2.win 0).blk t).view.emb (ix2 p q) = ((cfg2.win 2).blk t).view.emb (ix2 p q) := by
    funext a; apply Fin.ext
    match a with
    | ⟨0, _⟩ => show win2_0.index t (0 : Fin 2) * 5000 + 1 * p.val = win2_2.index t (0 : Fin 2) * 5000 + 1 * p.val; omega
    | ⟨1, _⟩ => show win2_0.index t (1 : Fin 2) * 16 + 1 * q.val = win2_2.index t (1 : Fin 2) * 16 + 1 * q.val; omega
  have h1 : ((cfg2.win 1).blk t).view.emb (ix2 (0 : Fin 1) q) = rowOf (((cfg2.win 2).blk t).view.emb (ix2 p q)) := by
    funext a; apply Fin.ext
    match a with
    | ⟨0, _⟩ => show win2_1.index t (0 : Fin 2) * 1 + 1 * 0 = 0; omega
    | ⟨1, _⟩ => show win2_1.index t (1 : Fin 2) * 16 + 1 * q.val = win2_2.index t (1 : Fin 2) * 16 + 1 * q.val; omega
  rw [h0, h1]

/-- An index of the result array is in point `t`'s block iff each coordinate is in the block's range on its axis. -/
theorem mem_block_iff (t : Fin cfg2.N) (i : S100000x16.Idx) :
    i ∈ ((cfg2.win 2).blk t).view.set ↔ ∀ a : Fin 2, win2_2.index t a * S5000x16.size a ≤ (i a).val ∧ (i a).val < win2_2.index t a * S5000x16.size a + S5000x16.size a := by
  show i ∈ ((View.whole main_v54).slice (win2_2.rect t)).set ↔ _
  rw [View.set_slice_whole, Rect.mem_set_unit]
  exact Iff.rfl

/-- Row `r` lies in the block of point `r / 5000`: the blocks tile the array. -/
theorem rows_tiled (i : S100000x16.Idx) : ∃ t : Fin cfg2.N, (cfg2.win 2).flush t = true ∧ i ∈ ((cfg2.win 2).blk t).view.set := by
  have hi0 : (i 0).val < 100000 := (i 0).isLt
  have hi1 : (i 1).val < 16 := (i 1).isLt
  have hN : grid2.N = 20 := N_2
  have ht : (i 0).val / 5000 < grid2.N := by rw [hN]; omega
  refine ⟨⟨(i 0).val / 5000, ht⟩, flush2_2 _, ?_⟩
  rw [mem_block_iff]
  obtain ⟨-, -, -, -, e4, e5⟩ := block_indices ⟨(i 0).val / 5000, ht⟩
  intro a
  match a with
  | ⟨0, _⟩ =>
    show win2_2.index ⟨(i 0).val / 5000, ht⟩ (0 : Fin 2) * 5000 ≤ (i 0).val ∧ (i 0).val < win2_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win2_2.index ⟨(i 0).val / 5000, ht⟩ (1 : Fin 2) * 16 ≤ (i 1).val ∧ (i 1).val < win2_2.index ⟨(i 0).val / 5000, ht⟩ (1 : Fin 2) * 16 + 16
    rw [e5]; omega

/-- After the region the result array is `biasRelu` of the two arrays, whatever the region was entered with. -/
theorem array_after (c : Dev nD) : (dat2 V c).arrAt 2 cfg2.N = biasRelu (aggArr V c) (biasArr V c) :=
  (dat2 V c).arrAt_eq_of_cover 2 (biasRelu (aggArr V c) (biasArr V c)) (fun t _ => writes_block V c t) rows_tiled

/-- The same, with the two input arrays named by the caller. -/
theorem array_after_of (c : Dev nD) (a : S100000x16.Idx → EReal) (b : S1x16.Idx → EReal)
    (ha : V c main_v52 = a) (hb : V c main_v53 = b) : (dat2 V c).arrAt 2 cfg2.N = biasRelu a b := by
  subst ha hb; exact array_after V c

end Cert.KernelIdeal.BiasRelu16

end
-- ==== Proof.Matmul7.lean ====
/-
  The second feature product, as one function of whole arrays.

  The region multiplies an [N, 16] array, N = 100 000, read in 20 blocks of 5000 rows, by a [16, 7] matrix that
  every block sees whole, into a zero accumulator. The two changes of float format in the body are the identity on
  extended reals, so entry (r, f) of a block's result is the sum over k < 7 of entry (r, k) of the rows times entry
  (k, f) of the matrix: no sum is split or reordered, a block only selects rows. The blocks tile the rows, so after
  the last write-back the whole result array is the full product.
-/
import proofs.«107772_j63445256896634_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Matmul7

open Cert.KernelIdeal Cert.KernelIdeal.Gen

variable (V : (c : Dev nD) → (b : Ref sig .tc) → Buf (Elt Ideal) ((c : Thread nD τ).loc b))

theorem offsets_zero : (![0, 0] : Fin 2 → Nat) = fun _ => 0 := funext fun a => by fin_cases a <;> rfl

/-- Entry (r, k) of the left operand, for result index `i` = (r, f). -/
abbrev lrow (i : S100000x7.Idx) (k : Fin 16) : S100000x16.Idx := fun a => match a with
  | ⟨0, _⟩ => ⟨(i 0).val, (i 0).isLt⟩
  | ⟨1, _⟩ => ⟨k.val, k.isLt⟩
/-- Entry (k, f) of the right operand, for result index `i` = (r, f). -/
abbrev rcol (i : S100000x7.Idx) (k : Fin 16) : S16x7.Idx := fun a => match a with
  | ⟨0, _⟩ => ⟨k.val, k.isLt⟩
  | ⟨1, _⟩ => ⟨(i 1).val, (i 1).isLt⟩

/-- The matrix product, index by index. -/
def prod (x : S100000x16.Idx → EReal) (w : S16x7.Idx → EReal) : S100000x7.Idx → EReal :=
  fun i => ∑ k : Fin 16, x (lrow i k) * w (rcol i k)

/-- The features and the weights as the region finds them, at their literal types. -/
abbrev xArr (c : Dev nD) : S100000x16.Idx → EReal := V c main_v54
abbrev wArr (c : Dev nD) : S16x7.Idx → EReal := V c main_arg4

theorem lhs_0 (i : S5000x7.Idx) (q : dot_S5000x16_S16x7_S5000x7_1_0_0_1_n_n.contr.Idx) :
    (dot_S5000x16_S16x7_S5000x7_1_0_0_1_n_n.lhsIdx i q 0).val = (i 0).val := by
  unfold DotDims.lhsIdx
  rw [dif_neg (show ¬(0 : Fin S5000x16.rank) ∈ dot_S5000x16_S16x7_S5000x7_1_0_0_1_n_n.lhsBatch by decide), dif_pos (show (0 : Fin S5000x16.rank) ∈ dot_S5000x16_S16x7_S5000x7_1_0_0_1_n_n.lhsNonContracting by decide)]
  rfl
theorem lhs_1 (i : S5000x7.Idx) (q : dot_S5000x16_S16x7_S5000x7_1_0_0_1_n_n.contr.Idx) :
    (dot_S5000x16_S16x7_S5000x7_1_0_0_1_n_n.lhsIdx i q 1).val = (q ⟨0, by decide⟩).val :=
  dot_S5000x16_S16x7_S5000x7_1_0_0_1_n_n.lhsIdx_val_of_single rfl i q
theorem rhs_0 (i : S5000x7.Idx) (q : dot_S5000x16_S16x7_S5000x7_1_0_0_1_n_n.contr.Idx) :
    (dot_S5000x16_S16x7_S5000x7_1_0_0_1_n_n.rhsIdx i q 0).val = (q ⟨0, by decide⟩).val :=
  dot_S5000x16_S16x7_S5000x7_1_0_0_1_n_n.rhsIdx_val_of_single rfl i q
theorem rhs_1 (i : S5000x7.Idx) (q : dot_S5000x16_S16x7_S5000x7_1_0_0_1_n_n.contr.Idx) :
    (dot_S5000x16_S16x7_S5000x7_1_0_0_1_n_n.rhsIdx i q 1).val = (i 1).val := by
  unfold DotDims.rhsIdx
  rw [dif_neg (show ¬(1 : Fin S16x7.rank) ∈ dot_S5000x16_S16x7_S5000x7_1_0_0_1_n_n.rhsBatch by decide), dif_pos (show (1 : Fin S16x7.rank) ∈ dot_S5000x16_S16x7_S5000x7_1_0_0_1_n_n.rhsNonContracting by decide)]
  rfl

/-- Inside a block: the product at (p, q) is the sum over k of rows (p, k) times matrix (k, q). -/
theorem body_at (x0 : Vec Ideal S5000x16 .f32) (x1 : Vec Ideal S16x7 .f32) (p : Fin 5000) (q : Fin 7) :
    k3_pay1 x0 x1 (ix2 p q) = ∑ k : Fin 16, x0 (ix2 p k) * x1 (ix2 k q) := by
  unfold k3_pay1
  simp only [shapeCast_self]
  simp only [matmul]
  rw [Ideal.matmul_constant_zero_apply, ← Equiv.sum_comp (ValueIdx.contrEquiv1 dot_S5000x16_S16x7_S5000x7_1_0_0_1_n_n 16 rfl rfl).symm]
  refine Finset.sum_congr rfl fun k _ => ?_
  have hk := ValueIdx.contrEquiv1_symm_val dot_S5000x16_S16x7_S5000x7_1_0_0_1_n_n 16 rfl rfl k
  have el : dot_S5000x16_S16x7_S5000x7_1_0_0_1_n_n.lhsIdx (ix2 p q) ((ValueIdx.contrEquiv1 dot_S5000x16_S16x7_S5000x7_1_0_0_1_n_n 16 rfl rfl).symm k) = ix2 p k := funext fun a => Fin.ext (by
    match a with
    | ⟨0, _⟩ => exact lhs_0 _ _
    | ⟨1, _⟩ => exact (lhs_1 _ _).trans hk)
  have er : dot_S5000x16_S16x7_S5000x7_1_0_0_1_n_n.rhsIdx (ix2 p q) ((ValueIdx.contrEquiv1 dot_S5000x16_S16x7_S5000x7_1_0_0_1_n_n 16 rfl rfl).symm k) = ix2 k q := funext fun a => Fin.ext (by
    match a with
    | ⟨0, _⟩ => exact (rhs_0 _ _).trans hk
    | ⟨1, _⟩ => exact rhs_1 _ _)
  rw [el, er]
  rfl

/-- At point `t` the rows' and the result's windows hold block `t`; the matrix's window always holds the matrix. -/
theorem block_indices : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the product of the arrays the region was entered with. -/
theorem writes_block (c : Dev nD) (t : Fin cfg3.N) :
    (dat3 V c).flushed 2 t = ((cfg3.win 2).blk t).view.read (Elt Ideal) (prod (xArr V c) (wArr V c)) := by
  show (cfg3.win 2).cut (grid3.coords t) ((dat3 V c).after 2 t) = _
  rw [after3_2]
  unfold out3_2
  rw [View.canon_unit_zero offsets_zero]
  simp only [View.ld_unit_zero (S := S5000x16) offsets_zero, View.ld_unit_zero (S := S16x7) offsets_zero]
  obtain ⟨e0, e1, e2, e3, e4, e5⟩ := block_indices t
  funext j
  obtain ⟨p, q, rfl⟩ : ∃ (p : Fin 5000) (q : Fin 7), j = ix2 p q := ⟨j 0, j 1, eq_ix2 j⟩
  refine (body_at _ _ p q).trans ?_
  show (∑ k : Fin 16, xArr V c (((cfg3.win 0).blk t).view.emb (ix2 p k)) * wArr V c (((cfg3.win 1).blk t).view.emb (ix2 k q)))
    = ∑ k : Fin 16, xArr V c (lrow (((cfg3.win 2).blk t).view.emb (ix2 p q)) k) * wArr V c (rcol (((cfg3.win 2).blk t).view.emb (ix2 p q)) k)
  refine Finset.sum_congr rfl fun k _ => ?_
  have h0 : ((cfg3.win 0).blk t).view.emb (ix2 p k) = lrow (((cfg3.win 2).blk t).view.emb (ix2 p q)) k := by
    funext a; apply Fin.ext
    match a with
    | ⟨0, _⟩ => show win3_0.index t (0 : Fin 2) * 5000 + 1 * p.val = win3_2.index t (0 : Fin 2) * 5000 + 1 * p.val; omega
    | ⟨1, _⟩ => show win3_0.index t (1 : Fin 2) * 16 + 1 * k.val = k.val; omega
  have h1 : ((cfg3.win 1).blk t).view.emb (ix2 k q) = rcol (((cfg3.win 2).blk t).view.emb (ix2 p q)) k := by
    funext a; apply Fin.ext
    match a with
    | ⟨0, _⟩ => show win3_1.index t (0 : Fin 2) * 16 + 1 * k.val = k.val; omega
    | ⟨1, _⟩ => show win3_1.index t (1 : Fin 2) * 7 + 1 * q.val = win3_2.index t (1 : Fin 2) * 7 + 1 * q.val; omega
  rw [h0, h1]

/-- An index of the result array is in point `t`'s block iff each coordinate is in the block's range on its axis. -/
theorem mem_block_iff (t : Fin cfg3.N) (i : S100000x7.Idx) :
    i ∈ ((cfg3.win 2).blk t).view.set ↔ ∀ a : Fin 2, win3_2.index t a * S5000x7.size a ≤ (i a).val ∧ (i a).val < win3_2.index t a * S5000x7.size a + S5000x7.size a := by
  show i ∈ ((View.whole main_v55).slice (win3_2.rect t)).set ↔ _
  rw [View.set_slice_whole, Rect.mem_set_unit]
  exact Iff.rfl

/-- Row `r` lies in the block of point `r / 5000`: the blocks tile the array. -/
theorem rows_tiled (i : S100000x7.Idx) : ∃ t : Fin cfg3.N, (cfg3.win 2).flush t = true ∧ i ∈ ((cfg3.win 2).blk t).view.set := by
  have hi0 : (i 0).val < 100000 := (i 0).isLt
  have hi1 : (i 1).val < 7 := (i 1).isLt
  have hN : grid3.N = 20 := N_3
  have ht : (i 0).val / 5000 < grid3.N := by rw [hN]; omega
  refine ⟨⟨(i 0).val / 5000, ht⟩, flush3_2 _, ?_⟩
  rw [mem_block_iff]
  obtain ⟨-, -, -, -, e4, e5⟩ := block_indices ⟨(i 0).val / 5000, ht⟩
  intro a
  match a with
  | ⟨0, _⟩ =>
    show win3_2.index ⟨(i 0).val / 5000, ht⟩ (0 : Fin 2) * 5000 ≤ (i 0).val ∧ (i 0).val < win3_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win3_2.index ⟨(i 0).val / 5000, ht⟩ (1 : Fin 2) * 7 ≤ (i 1).val ∧ (i 1).val < win3_2.index ⟨(i 0).val / 5000, ht⟩ (1 : Fin 2) * 7 + 7
    rw [e5]; omega

/-- After the region the result array is the product, whatever the region was entered with. -/
theorem array_after (c : Dev nD) : (dat3 V c).arrAt 2 cfg3.N = prod (xArr V c) (wArr V c) :=
  (dat3 V c).arrAt_eq_of_cover 2 (prod (xArr V c) (wArr V c)) (fun t _ => writes_block V c t) rows_tiled

/-- The same, with the two input arrays named by the caller. -/
theorem array_after_of (c : Dev nD) (x : S100000x16.Idx → EReal) (w : S16x7.Idx → EReal)
    (hx : V c main_v54 = x) (hw : V c main_arg4 = w) : (dat3 V c).arrAt 2 cfg3.N = prod x w := by
  subst hx hw; exact array_after V c

end Cert.KernelIdeal.Matmul7

end
-- ==== Proof.Scale7.lean ====
/-
  The edge-message product of the second layer, as one function of whole arrays.

  The region multiplies an [E, 7] array of gathered rows by an [E, 1] column, E = 3 300 000, in 500 blocks of 6600
  rows: block t holds rows 6600·t … 6600·t + 6599 of all three arrays, and inside a block the column is broadcast along
  the row, so entry (r, f) of the result is entry (r, f) of the rows times entry (r, 0) of the column. The blocks tile
  the rows, so after the last write-back the whole result array is that product.
-/
import proofs.«107772_j63445256896634_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Scale7

open Cert.KernelIdeal Cert.KernelIdeal.Gen

variable (V : (c : Dev nD) → (b : Ref sig .tc) → Buf (Elt Ideal) ((c : Thread nD τ).loc b))

theorem offsets_zero : (![0, 0] : Fin 2 → Nat) = fun _ => 0 := funext fun a => by fin_cases a <;> rfl

/-- The column entry that scales row `i 0`. -/
abbrev colOf (i : S3300000x7.Idx) : S3300000x1.Idx := fun a => match a with
  | ⟨0, _⟩ => ⟨(i 0).val, (i 0).isLt⟩
  | ⟨1, _⟩ => ⟨0, Nat.one_pos⟩

/-- Every row of `h` multiplied by its entry of the column `n`. -/
def scaled (h : S3300000x7.Idx → EReal) (n : S3300000x1.Idx → EReal) : S3300000x7.Idx → EReal :=
  fun i => h i * n (colOf i)

/-- The gathered rows and the column as the region finds them, at their literal types. -/
abbrev rowsArr (c : Dev nD) : S3300000x7.Idx → EReal := V c main_v62
abbrev colArr (c : Dev nD) : S3300000x1.Idx → EReal := V c main_v35

/-- Inside a block: the product at (p, q) is the rows' entry (p, q) times the column's entry (p, 0). -/
theorem body_at (x0 : Vec Ideal S6600x7 .f32) (x1 : Vec Ideal S6600x1 .f32) (p : Fin 6600) (q : Fin 7) :
    k4_pay1 x0 x1 (ix2 p q) = x0 (ix2 p q) * x1 (ix2 p (0 : Fin 1)) := by
  unfold k4_pay1
  simp only [shapeCast_self]
  show (x0 (ix2 p q) : EReal) * broadcastTo S6600x7 x1 broadcasts_S6600x1_S6600x7 (ix2 p q) = _
  rw [broadcastTo_apply x1 broadcasts_S6600x1_S6600x7 (ix2 p q) (ix2 p (0 : Fin 1)) (fun ax => by
    match ax with
    | ⟨0, _⟩ => show p.val = if (6600 : Nat) = 1 then 0 else p.val; rw [if_neg (by decide)]
    | ⟨1, _⟩ => rfl)]

/-- The three windows move together: at point `t` each holds block `t` of its array's rows. -/
theorem block_indices : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- What point `t` writes back is block `t` of the product of the arrays the region was entered with. -/
theorem writes_block (c : Dev nD) (t : Fin cfg4.N) :
    (dat4 V c).flushed 2 t = ((cfg4.win 2).blk t).view.read (Elt Ideal) (scaled (rowsArr V c) (colArr V c)) := by
  show (cfg4.win 2).cut (grid4.coords t) ((dat4 V c).after 2 t) = _
  rw [after4_2]
  unfold out4_2
  rw [View.canon_unit_zero offsets_zero]
  simp only [View.ld_unit_zero (S := S6600x7) offsets_zero, View.ld_unit_zero (S := S6600x1) offsets_zero]
  obtain ⟨e0, e1, e2, e3, e4, e5⟩ := block_indices t
  funext j
  obtain ⟨p, q, rfl⟩ : ∃ (p : Fin 6600) (q : Fin 7), j = ix2 p q := ⟨j 0, j 1, eq_ix2 j⟩
  refine (body_at _ _ p q).trans ?_
  show rowsArr V c (((cfg4.win 0).blk t).view.emb (ix2 p q)) * colArr V c (((cfg4.win 1).blk t).view.emb (ix2 p (0 : Fin 1)))
    = rowsArr V c (((cfg4.win 2).blk t).view.emb (ix2 p q)) * colArr V c (colOf (((cfg4.win 2).blk t).view.emb (ix2 p q)))
  have h0 : ((cfg4.win 0).blk t).view.emb (ix2 p q) = ((cfg4.win 2).blk t).view.emb (ix2 p q) := by
    funext a; apply Fin.ext
    match a with
    | ⟨0, _⟩ => show win4_0.index t (0 : Fin 2) * 6600 + 1 * p.val = win4_2.index t (0 : Fin 2) * 6600 + 1 * p.val; omega
    | ⟨1, _⟩ => show win4_0.index t (1 : Fin 2) * 7 + 1 * q.val = win4_2.index t (1 : Fin 2) * 7 + 1 * q.val; omega
  have h1 : ((cfg4.win 1).blk t).view.emb (ix2 p (0 : Fin 1)) = colOf (((cfg4.win 2).blk t).view.emb (ix2 p q)) := by
    funext a; apply Fin.ext
    match a with
    | ⟨0, _⟩ => show win4_1.index t (0 : Fin 2) * 6600 + 1 * p.val = win4_2.index t (0 : Fin 2) * 6600 + 1 * p.val; omega
    | ⟨1, _⟩ => show win4_1.index t (1 : Fin 2) * 1 + 1 * 0 = 0; omega
  rw [h0, h1]

/-- An index of the result array is in point `t`'s block iff each coordinate is in the block's range on its axis. -/
theorem mem_block_iff (t : Fin cfg4.N) (i : S3300000x7.Idx) :
    i ∈ ((cfg4.win 2).blk t).view.set ↔ ∀ a : Fin 2, win4_2.index t a * S6600x7.size a ≤ (i a).val ∧ (i a).val < win4_2.index t a * S6600x7.size a + S6600x7.size a := by
  show i ∈ ((View.whole main_v63).slice (win4_2.rect t)).set ↔ _
  rw [View.set_slice_whole, Rect.mem_set_unit]
  exact Iff.rfl

/-- Row `r` lies in the block of point `r / 6600`: the blocks tile the array. -/
theorem rows_tiled (i : S3300000x7.Idx) : ∃ t : Fin cfg4.N, (cfg4.win 2).flush t = true ∧ i ∈ ((cfg4.win 2).blk t).view.set := by
  have hi0 : (i 0).val < 3300000 := (i 0).isLt
  have hi1 : (i 1).val < 7 := (i 1).isLt
  have hN : grid4.N = 500 := N_4
  have ht : (i 0).val / 6600 < grid4.N := by rw [hN]; omega
  refine ⟨⟨(i 0).val / 6600, ht⟩, flush4_2 _, ?_⟩
  rw [mem_block_iff]
  obtain ⟨-, -, -, -, e4, e5⟩ := block_indices ⟨(i 0).val / 6600, ht⟩
  intro a
  match a with
  | ⟨0, _⟩ =>
    show win4_2.index ⟨(i 0).val / 6600, ht⟩ (0 : Fin 2) * 6600 ≤ (i 0).val ∧ (i 0).val < win4_2.index ⟨(i 0).val / 6600, ht⟩ (0 : Fin 2) * 6600 + 6600
    rw [e4]; show (i 0).val / 6600 * 6600 ≤ (i 0).val ∧ (i 0).val < (i 0).val / 6600 * 6600 + 6600; omega
  | ⟨1, _⟩ =>
    show win4_2.index ⟨(i 0).val / 6600, ht⟩ (1 : Fin 2) * 7 ≤ (i 1).val ∧ (i 1).val < win4_2.index ⟨(i 0).val / 6600, ht⟩ (1 : Fin 2) * 7 + 7
    rw [e5]; omega

/-- After the region the result array is the rows scaled by the column, whatever the region was entered with. -/
theorem array_after (c : Dev nD) : (dat4 V c).arrAt 2 cfg4.N = scaled (rowsArr V c) (colArr V c) :=
  (dat4 V c).arrAt_eq_of_cover 2 (scaled (rowsArr V c) (colArr V c)) (fun t _ => writes_block V c t) rows_tiled

/-- The same, with the two input arrays named by the caller. -/
theorem array_after_of (c : Dev nD) (h : S3300000x7.Idx → EReal) (n : S3300000x1.Idx → EReal)
    (hh : V c main_v62 = h) (hn : V c main_v35 = n) : (dat4 V c).arrAt 2 cfg4.N = scaled h n := by
  subst hh hn; exact array_after V c

end Cert.KernelIdeal.Scale7

end
-- ==== Proof.BiasRelu7.lean ====
/-
  Bias and ReLU after the second aggregation, as one function of whole arrays.

  The region reads an [N, 7] array, N = 100 000, in 20 blocks of 5000 rows, and a [1, 7] row that every block sees
  whole. Inside a block the row is broadcast down the rows, so entry (r, f) of the result is the larger of zero and
  entry (r, f) of the array plus entry (0, f) of the row. The blocks tile the rows, so after the last write-back the
  whole result array is that function of the two arrays.
-/
import proofs.«107772_j63445256896634_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.BiasRelu7

open Cert.KernelIdeal Cert.KernelIdeal.Gen

variable (V : (c : Dev nD) → (b : Ref sig .tc) → Buf (Elt Ideal) ((c : Thread nD τ).loc b))

theorem offsets_zero : (![0, 0] : Fin 2 → Nat) = fun _ => 0 := funext fun a => by fin_cases a <;> rfl

/-- The bias entry added along column `i 1`. -/
abbrev rowOf (i : S100000x7.Idx) : S1x7.Idx := fun a => match a with
  | ⟨0, _⟩ => ⟨0, Nat.one_pos⟩
  | ⟨1, _⟩ => ⟨(i 1).val, (i 1).isLt⟩

/-- The bias row added to every row of `a`, then the maximum with zero. -/
def biasRelu (a : S100000x7.Idx → EReal) (b : S1x7.Idx → EReal) : S100000x7.Idx → EReal :=
  fun i => max (a i + b (rowOf i)) (Scalar.ofBits (F := Ideal) .f32 0x00000000#32)

/-- The aggregated array and the bias row as the region finds them, at their literal types. -/
abbrev aggArr (c : Dev nD) : S100000x7.Idx → EReal := V c main_v71
abbrev biasArr (c : Dev nD) : S1x7.Idx → EReal := V c main_v72

/-- Inside a block: the result at (p, q) is max (a (p, q) + b (0, q)) 0. -/
theorem body_at (x0 : Vec Ideal S5000x7 .f32) (x1 : Vec Ideal S1x7 .f32) (p : Fin 5000) (q : Fin 7) :
    k5_pay1 x0 x1 (ix2 p q) = max (x0 (ix2 p q) + x1 (ix2 (0 : Fin 1) q)) (Scalar.ofBits (F := Ideal) .f32 0x00000000#32) := by
  unfold k5_pay1
  simp only [shapeCast_self]
  show max ((x0 (ix2 p q) : EReal) + broadcastTo S5000x7 x1 broadcasts_S1x7_S5000x7 (ix2 p q)) _ = _
  rw [broadcastTo_apply x1 broadcasts_S1x7_S5000x7 (ix2 p q) (ix2 (0 : Fin 1) q) (fun ax => by
    match ax with
    | ⟨0, _⟩ => show (0 : Nat) = if (1 : Nat) = 1 then 0 else p.val; rw [if_pos rfl]
    | ⟨1, _⟩ => show q.val = if (7 : Nat) = 1 then 0 else q.val; rw [if_neg (by decide)])]
  rfl

/-- At point `t` the array's windows hold block `t` of the rows; the bias window always holds the one row. -/
theorem block_indices : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point `t` writes back is block `t` of `biasRelu` of the arrays the region was entered with. -/
theorem writes_block (c : Dev nD) (t : Fin cfg5.N) :
    (dat5 V c).flushed 2 t = ((cfg5.win 2).blk t).view.read (Elt Ideal) (biasRelu (aggArr V c) (biasArr V c)) := by
  show (cfg5.win 2).cut (grid5.coords t) ((dat5 V c).after 2 t) = _
  rw [after5_2]
  unfold out5_2
  rw [View.canon_unit_zero offsets_zero]
  simp only [View.ld_unit_zero (S := S5000x7) offsets_zero, View.ld_unit_zero (S := S1x7) offsets_zero]
  obtain ⟨e0, e1, e2, e3, e4, e5⟩ := block_indices t
  funext j
  obtain ⟨p, q, rfl⟩ : ∃ (p : Fin 5000) (q : Fin 7), j = ix2 p q := ⟨j 0, j 1, eq_ix2 j⟩
  refine (body_at _ _ p q).trans ?_
  show max (aggArr V c (((cfg5.win 0).blk t).view.emb (ix2 p q)) + biasArr V c (((cfg5.win 1).blk t).view.emb (ix2 (0 : Fin 1) q))) _
    = max (aggArr V c (((cfg5.win 2).blk t).view.emb (ix2 p q)) + biasArr V c (rowOf (((cfg5.win 2).blk t).view.emb (ix2 p q)))) _
  have h0 : ((cfg5.win 0).blk t).view.emb (ix2 p q) = ((cfg5.win 2).blk t).view.emb (ix2 p q) := by
    funext a; apply Fin.ext
    match a with
    | ⟨0, _⟩ => show win5_0.index t (0 : Fin 2) * 5000 + 1 * p.val = win5_2.index t (0 : Fin 2) * 5000 + 1 * p.val; omega
    | ⟨1, _⟩ => show win5_0.index t (1 : Fin 2) * 7 + 1 * q.val = win5_2.index t (1 : Fin 2) * 7 + 1 * q.val; omega
  have h1 : ((cfg5.win 1).blk t).view.emb (ix2 (0 : Fin 1) q) = rowOf (((cfg5.win 2).blk t).view.emb (ix2 p q)) := by
    funext a; apply Fin.ext
    match a with
    | ⟨0, _⟩ => show win5_1.index t (0 : Fin 2) * 1 + 1 * 0 = 0; omega
    | ⟨1, _⟩ => show win5_1.index t (1 : Fin 2) * 7 + 1 * q.val = win5_2.index t (1 : Fin 2) * 7 + 1 * q.val; omega
  rw [h0, h1]

/-- An index of the result array is in point `t`'s block iff each coordinate is in the block's range on its axis. -/
theorem mem_block_iff (t : Fin cfg5.N) (i : S100000x7.Idx) :
    i ∈ ((cfg5.win 2).blk t).view.set ↔ ∀ a : Fin 2, win5_2.index t a * S5000x7.size a ≤ (i a).val ∧ (i a).val < win5_2.index t a * S5000x7.size a + S5000x7.size a := by
  show i ∈ ((View.whole main_v73).slice (win5_2.rect t)).set ↔ _
  rw [View.set_slice_whole, Rect.mem_set_unit]
  exact Iff.rfl

/-- Row `r` lies in the block of point `r / 5000`: the blocks tile the array. -/
theorem rows_tiled (i : S100000x7.Idx) : ∃ t : Fin cfg5.N, (cfg5.win 2).flush t = true ∧ i ∈ ((cfg5.win 2).blk t).view.set := by
  have hi0 : (i 0).val < 100000 := (i 0).isLt
  have hi1 : (i 1).val < 7 := (i 1).isLt
  have hN : grid5.N = 20 := N_5
  have ht : (i 0).val / 5000 < grid5.N := by rw [hN]; omega
  refine ⟨⟨(i 0).val / 5000, ht⟩, flush5_2 _, ?_⟩
  rw [mem_block_iff]
  obtain ⟨-, -, -, -, e4, e5⟩ := block_indices ⟨(i 0).val / 5000, ht⟩
  intro a
  match a with
  | ⟨0, _⟩ =>
    show win5_2.index ⟨(i 0).val / 5000, ht⟩ (0 : Fin 2) * 5000 ≤ (i 0).val ∧ (i 0).val < win5_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win5_2.index ⟨(i 0).val / 5000, ht⟩ (1 : Fin 2) * 7 ≤ (i 1).val ∧ (i 1).val < win5_2.index ⟨(i 0).val / 5000, ht⟩ (1 : Fin 2) * 7 + 7
    rw [e5]; omega

/-- After the region the result array is `biasRelu` of the two arrays, whatever the region was entered with. -/
theorem array_after (c : Dev nD) : (dat5 V c).arrAt 2 cfg5.N = biasRelu (aggArr V c) (biasArr V c) :=
  (dat5 V c).arrAt_eq_of_cover 2 (biasRelu (aggArr V c) (biasArr V c)) (fun t _ => writes_block V c t) rows_tiled

/-- The same, with the two input arrays named by the caller. -/
theorem array_after_of (c : Dev nD) (a : S100000x7.Idx → EReal) (b : S1x7.Idx → EReal)
    (ha : V c main_v71 = a) (hb : V c main_v72 = b) : (dat5 V c).arrAt 2 cfg5.N = biasRelu a b := by
  subst ha hb; exact array_after V c

end Cert.KernelIdeal.BiasRelu7

end
-- ==== Proof.BridgeB.lean ====
/-
  The kernel's program, boundary by boundary, against the reference's stages.

  At the ideal values each region computes what the reference computes by one host operation or two: the blocked
  matrix products are the reference's dot products (a block only selects rows, and the changes of float format are the
  identity), the blocked scaling is the reference's product with the broadcast weights (the kernel's column view
  [E] → [E, 1] and the reference's two broadcasts read the same weight for row r), and the blocked bias and ReLU is the
  reference's broadcast add followed by the maximum with zero (the kernel's row view [f] → [1, f] and the reference's
  two broadcasts read the same bias for column f). Between the regions both programs gather and scatter-add with the same
  operations, and nothing in between touches the index vectors, the weights or the later arguments. So, walking @main's
  boundaries in order, every buffer the next step reads holds a stage of the reference, and the result buffer ends at
  the reference's last stage.
-/
import proofs.«107772_j63445256896634_1_alg».proof.Proof.BridgeA
import proofs.«107772_j63445256896634_1_alg».proof.Proof.BridgeHost
import proofs.«107772_j63445256896634_1_alg».proof.Proof.Kept
import proofs.«107772_j63445256896634_1_alg».proof.Proof.Matmul16
import proofs.«107772_j63445256896634_1_alg».proof.Proof.Scale16
import proofs.«107772_j63445256896634_1_alg».proof.Proof.BiasRelu16
import proofs.«107772_j63445256896634_1_alg».proof.Proof.Matmul7
import proofs.«107772_j63445256896634_1_alg».proof.Proof.Scale7
import proofs.«107772_j63445256896634_1_alg».proof.Proof.BiasRelu7
import Idealize.ShloMosaic.Lib.ValueIdx
import Idealize.ShloMosaic.PureOps.Ideal.Laws
import Idealize.ShloMosaic.Lib.StableHlo.Run
import Idealize.ShloMosaic.Lib.Pipeline.Value

set_option maxRecDepth 16384

noncomputable section

open Idealize.ShloMosaic Idealize.ShloMosaic.TcCoe Idealize.SL.Sem Idealize.ShloMosaic.StableHlo

namespace Cert.Bridge

open Cert.KernelIdeal Cert.KernelIdeal.Gen
open Cert.ReferenceIdeal.ReadP

variable (m : (ℓ : Loc nD τ sig) → Buf (Elt Ideal) ℓ) (ρ : Dev nD → PrngReg) (c : Dev nD)

/-! ## The two views the kernel takes where the reference broadcasts -/

/-- The weights [E] viewed as a column [E, 1] and read at row r's entry: the weight of edge r. -/
theorem col_read16 (y : S3300000.Idx → EReal) (i : S3300000x16.Idx) :
    shapeCast S3300000x1 y shapeCasts_S3300000_S3300000x1 (Scale16.colOf i) = y (idx_main_v43 (idx_main_v44 i)) :=
  shapeCast_apply y shapeCasts_S3300000_S3300000x1 _ _ (by
    rw [Shape.rowMajor_val_one, Shape.rowMajor_val_two]
    show (i 0).val = (i 0).val * 1 + 0
    omega)
theorem col_read7 (y : S3300000.Idx → EReal) (i : S3300000x7.Idx) :
    shapeCast S3300000x1 y shapeCasts_S3300000_S3300000x1 (Scale7.colOf i) = y (idx_main_v94 (idx_main_v95 i)) :=
  shapeCast_apply y shapeCasts_S3300000_S3300000x1 _ _ (by
    rw [Shape.rowMajor_val_one, Shape.rowMajor_val_two]
    show (i 0).val = (i 0).val * 1 + 0
    omega)
/-- The bias [f] viewed as a row [1, f] and read at column q's entry: the bias of feature q. -/
theorem row_read16 (y : S16.Idx → EReal) (i : S100000x16.Idx) :
    shapeCast S1x16 y shapeCasts_S16_S1x16 (BiasRelu16.rowOf i) = y (idx_main_v54 (idx_main_v55 i)) :=
  shapeCast_apply y shapeCasts_S16_S1x16 _ _ (by
    rw [Shape.rowMajor_val_one, Shape.rowMajor_val_two]
    show (i 1).val = 0 * 16 + (i 1).val
    omega)
theorem row_read7 (y : S7.Idx → EReal) (i : S100000x7.Idx) :
    shapeCast S1x7 y shapeCasts_S7_S1x7 (BiasRelu7.rowOf i) = y (idx_main_v105 (idx_main_v106 i)) :=
  shapeCast_apply y shapeCasts_S7_S1x7 _ _ (by
    rw [Shape.rowMajor_val_one, Shape.rowMajor_val_two]
    show (i 1).val = 0 * 7 + (i 1).val
    omega)

/-! ## After region 0: the first product -/

theorem v36_4 : W4 m ρ c (Proc.devRef .tc main_v36) = val_main_v35 (F := Ideal) (a0 m c) (a2 m c) := by
  have h : W4 m ρ c (Proc.devRef .tc main_v36) = _ := W4_arr m ρ c 2
  refine (h.trans (Matmul16.array_after_of (V3 m ρ) c _ _ (arg0_3 m ρ c) (arg2_3 m ρ c))).trans ?_
  funext i
  rw [val_main_v35_apply]
  rfl

/-! ## After the gather: the rows at the source indices -/

theorem v43_5 : W5 m ρ c (Proc.devRef .tc main_v43) = val_main_v42 (F := Ideal) (a0 m c) (a1 m c) (a2 m c) :=
  host1_v43 (W4 m ρ c) _ _ _ (v36_4 m ρ c) (v3_4 m ρ c)

/-! ## After region 1: the messages of the first layer -/

theorem v44_6 : W6 m ρ c (Proc.devRef .tc main_v44) = val_main_v45 (F := Ideal) (a0 m c) (a1 m c) (a2 m c) := by
  have h : W6 m ρ c (Proc.devRef .tc main_v44) = _ := W6_arr m ρ c 2
  refine (h.trans (Scale16.array_after_of (V5 m ρ) c _ _ (v43_5 m ρ c) (v35_5 m ρ c))).trans ?_
  funext i
  rw [val_main_v45_apply, val_main_v44_apply, val_main_v43_apply]
  show val_main_v42 (F := Ideal) (a0 m c) (a1 m c) (a2 m c) i * shapeCast S3300000x1 (val_main_v34 (F := Ideal) (a1 m c)) shapeCasts_S3300000_S3300000x1 (Scale16.colOf i) = _
  rw [col_read16]
  rfl

/-! ## After the scatter-add: the first aggregation, and the bias as a row -/

theorem v52_7 : W7 m ρ c (Proc.devRef .tc main_v52) = val_main_v53 (F := Ideal) (a0 m c) (a1 m c) (a2 m c) :=
  host2_v52 (W6 m ρ c) _ _ _ (v44_6 m ρ c) (v6_6 m ρ c)
theorem v53_7 : W7 m ρ c (Proc.devRef .tc main_v53) = shapeCast S1x16 (a3 m c) shapeCasts_S16_S1x16 :=
  host2_v53 (W6 m ρ c) _ (arg3_6 m ρ c)

/-! ## After region 2: the first layer's output -/

theorem v54_8 : W8 m ρ c (Proc.devRef .tc main_v54) = val_main_v57 (F := Ideal) (a0 m c) (a1 m c) (a2 m c) (a3 m c) := by
  have h : W8 m ρ c (Proc.devRef .tc main_v54) = _ := W8_arr m ρ c 2
  refine (h.trans (BiasRelu16.array_after_of (V7 m ρ) c _ _ (v52_7 m ρ c) (v53_7 m ρ c))).trans ?_
  funext i
  rw [val_main_v57_apply, val_main_v56_apply, val_main_v55_apply, val_main_v54_apply, val_main_call1_v0_apply, val_main_call1_cst_apply]
  show max (val_main_v53 (F := Ideal) (a0 m c) (a1 m c) (a2 m c) i + shapeCast S1x16 (a3 m c) shapeCasts_S16_S1x16 (BiasRelu16.rowOf i)) _ = _
  rw [row_read16]
  rfl

/-! ## After region 3: the second product -/

theorem v55_9 : W9 m ρ c (Proc.devRef .tc main_v55) = val_main_v86 (F := Ideal) (a0 m c) (a1 m c) (a2 m c) (a3 m c) (a4 m c) := by
  have h : W9 m ρ c (Proc.devRef .tc main_v55) = _ := W9_arr m ρ c 2
  refine (h.trans (Matmul7.array_after_of (V8 m ρ) c _ _ (v54_8 m ρ c) (arg4_8 m ρ c))).trans ?_
  funext i
  rw [val_main_v86_apply]
  rfl

/-! ## After the gather: the rows at the source indices -/

theorem v62_10 : W10 m ρ c (Proc.devRef .tc main_v62) = val_main_v93 (F := Ideal) (a0 m c) (a1 m c) (a2 m c) (a3 m c) (a4 m c) :=
  host4_v62 (W9 m ρ c) _ _ _ _ _ (v55_9 m ρ c) (v3_9 m ρ c)

/-! ## After region 4: the messages of the second layer -/

theorem v63_11 : W11 m ρ c (Proc.devRef .tc main_v63) = val_main_v96 (F := Ideal) (a0 m c) (a1 m c) (a2 m c) (a3 m c) (a4 m c) := by
  have h : W11 m ρ c (Proc.devRef .tc main_v63) = _ := W11_arr m ρ c 2
  refine (h.trans (Scale7.array_after_of (V10 m ρ) c _ _ (v62_10 m ρ c) (v35_10 m ρ c))).trans ?_
  funext i
  rw [val_main_v96_apply, val_main_v95_apply, val_main_v94_apply, norm_again]
  show val_main_v93 (F := Ideal) (a0 m c) (a1 m c) (a2 m c) (a3 m c) (a4 m c) i * shapeCast S3300000x1 (val_main_v34 (F := Ideal) (a1 m c)) shapeCasts_S3300000_S3300000x1 (Scale7.colOf i) = _
  rw [col_read7]
  rfl

/-! ## After the scatter-add: the second aggregation, and the bias as a row -/

theorem v71_12 : W12 m ρ c (Proc.devRef .tc main_v71) = val_main_v104 (F := Ideal) (a0 m c) (a1 m c) (a2 m c) (a3 m c) (a4 m c) :=
  host5_v71 (W11 m ρ c) _ _ _ _ _ (v63_11 m ρ c) (v6_11 m ρ c)
theorem v72_12 : W12 m ρ c (Proc.devRef .tc main_v72) = shapeCast S1x7 (a5 m c) shapeCasts_S7_S1x7 :=
  host5_v72 (W11 m ρ c) _ (arg5_11 m ρ c)

/-! ## After region 5: the result -/

/-- The kernel's result buffer after the run is the reference's last stage of the kernel's own arguments. -/
theorem kernel_value : W13 m ρ c (Proc.devRef .tc main_v73) = val_main_v108 (F := Ideal) (a0 m c) (a1 m c) (a2 m c) (a3 m c) (a4 m c) (a5 m c) := by
  have h : W13 m ρ c (Proc.devRef .tc main_v73) = _ := W13_arr m ρ c 2
  refine (h.trans (BiasRelu7.array_after_of (V12 m ρ) c _ _ (v71_12 m ρ c) (v72_12 m ρ c))).trans ?_
  funext i
  rw [val_main_v108_apply, val_main_v107_apply, val_main_v106_apply, val_main_v105_apply, val_main_call3_v0_apply, val_main_call3_cst_apply]
  show max (val_main_v104 (F := Ideal) (a0 m c) (a1 m c) (a2 m c) (a3 m c) (a4 m c) i + shapeCast S1x7 (a5 m c) shapeCasts_S7_S1x7 (BiasRelu7.rowOf i)) _ = _
  rw [row_read7]
  rfl

end Cert.Bridge

end
-- ==== Proof.lean ====
/-
  A two-layer graph convolution, blocked on the accelerator, against its plain array form.

  Both programs take node features x [N, 128], an edge list [2, E₀], weights W1 [128, 16], W2 [16, 7] and biases b1, b2,
  with N = 100 000 and E₀ = 3 200 000. Both append the N self-loops to the edge list (E = 3 300 000 edges), count each
  node's in-degree by a scatter-add of ones, take the inverse square root where the degree is positive, and give edge e
  the weight dinv[src e] · dinv[dst e]. A layer then is: multiply the features by the weight matrix, gather the product's
  rows at the source indices, scale row e by the weight of edge e, scatter-add the rows at the destination indices into
  zeros, add the bias to every row, and take the maximum with zero.

  The kernel's program does the three dense steps of each layer in blocks of rows — the matrix product 5000 rows at a time
  (its operands passed through a narrower float format, which is the identity on extended reals), the scaling 6600 edges
  at a time, the bias and maximum 5000 rows at a time — and the gathers and scatter-adds by the same host operations as
  the reference. A block of rows only selects rows: no sum is split, reordered or regrouped, the contraction axis of each
  product is kept whole. So every intermediate array of the kernel's program is, as a whole array, the corresponding
  intermediate of the reference, and the claim needs no algebraic law and never opens the finiteness precondition.

  The pieces: the kernel's run with its result buffer read off the last segment boundary (KRun); what each region leaves
  in its output array as one function of its input arrays (Matmul16 / Scale16 / BiasRelu16 and their second-layer
  siblings); the index vectors and edge weights at the first region's entry (BridgeA); the host stretches (BridgeHost);
  the buffers nothing touches (HostKept, Kept); the walk through @main's boundaries to the reference's last stage
  (BridgeB); the reference's run and its stages (RefRun, RefRead).
-/
import proofs.«107772_j63445256896634_1_alg».proof.Defs
import proofs.«107772_j63445256896634_1_alg».proof.Proof.Gen.Kernel
import proofs.«107772_j63445256896634_1_alg».proof.Proof.Gen.Kernel.Frame
import proofs.«107772_j63445256896634_1_alg».proof.Proof.Gen.KernelIdeal
import proofs.«107772_j63445256896634_1_alg».proof.Proof.Gen.KernelIdeal.Frame
import proofs.«107772_j63445256896634_1_alg».proof.Proof.Gen.ReferenceIdeal
import proofs.«107772_j63445256896634_1_alg».proof.Proof.Gen.Pre_finite_inputs
import proofs.«107772_j63445256896634_1_alg».proof.Proof.KRun
import proofs.«107772_j63445256896634_1_alg».proof.Proof.RefRun
import proofs.«107772_j63445256896634_1_alg».proof.Proof.RefRead
import proofs.«107772_j63445256896634_1_alg».proof.Proof.BridgeB
import Idealize.ShloMosaic.Adequacy
import Idealize.ShloMosaic.Init

noncomputable section

namespace Cert.Proof

open Idealize.ShloMosaic Idealize.SL.Sem

/-- The word-level kernel program runs and leaves its arguments: the generated frame over its six regions. -/
theorem frame_k : Cert.frame_Kernel := fun m ρ _ => Cert.Kernel.Gen.frame m ρ

/-- The same for the kernel program read at the ideal values. -/
theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing: the idealized kernel is the kernel's own text read at the ideal values. -/
theorem preserves : Cert.preserves_Kernel_KernelIdeal := trivial

/-- Both programs end with the reference's last stage of the (agreeing) arguments in their result buffers. -/
theorem algebraic : Cert.algebraic_KernelIdeal_ReferenceIdeal := by
  intro m ρ m' ρ' _ hagree
  refine ⟨fun c => Cert.ReferenceIdeal.ReadP.val_main_v108 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.Bridge.kernel_value m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.ValueP.run (F := Ideal) m' ρ')
    obtain ⟨h0, h1, h2, h3, h4, h5⟩ := hagree c
    rw [Cert.ReferenceIdeal.ReadP.val_main_v108_eq, h0, h1, h2, h3, h4, h5]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
